-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v60)) (v1 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_v66) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x128 .f32) (main_arg9 : FVec F S1 .f32) (main_arg10 : FVec F S1x128 .f32) (main_v33 : IVec S_ 1) : IVec S_ 1 :=
  let main_v34 : FVec F S1x128 .f32 := Host.absf main_arg8
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1x128 .f32 := Host.absf main_arg10
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S1x128 .f32) (main_arg9 : FVec F S1 .f32) (main_arg10 : FVec F S1x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S1x128 .f32) (main_arg9 : FVec F S1 .f32) (main_arg10 : FVec F S1x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S1x1 : Shape := ⟨2, ![1, 1]⟩
abbrev S128x1 : Shape := ⟨2, ![128, 1]⟩
abbrev S5000x1 : Shape := ⟨2, ![5000, 1]⟩

abbrev nBuf : Space → Nat
  | .hbm => 93
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x128, .f32⟩
  | .hbm, ⟨9, _⟩ => ⟨S1, .f32⟩
  | .hbm, ⟨10, _⟩ => ⟨S1x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S128x128, .f32⟩
  | .hbm, ⟨45, _⟩ => ⟨S128x128, .f32⟩
  | .hbm, ⟨46, _⟩ => ⟨S100000x128, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S128x128, .f32⟩
  | .hbm, ⟨64, _⟩ => ⟨S128x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S_, .f32⟩
  | .hbm, ⟨76, _⟩ => ⟨S100000x128, .f32⟩
  | .hbm, ⟨77, _⟩ => ⟨S1600000x1, .i32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S1x1, .f32⟩
  | .hbm, ⟨82, _⟩ => ⟨S128x1, .f32⟩
  | .hbm, ⟨83, _⟩ => ⟨S128x1, .f32⟩
  | .hbm, ⟨84, _⟩ => ⟨S100000x1, .f32⟩
  | .hbm, ⟨85, _⟩ => ⟨S100000x1, .f32⟩
  | .hbm, ⟨86, _⟩ => ⟨S100000x1, .f32⟩
  | .hbm, ⟨87, _⟩ => ⟨S_, .f32⟩
  | .hbm, ⟨88, _⟩ => ⟨S100000x1, .f32⟩
  | .hbm, ⟨89, _⟩ => ⟨S100000x1, .f32⟩
  | .hbm, ⟨90, _⟩ => ⟨S_, .f32⟩
  | .hbm, ⟨91, _⟩ => ⟨S100000x1, .f32⟩
  | .hbm, ⟨92, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x1, .f32⟩
  | .local _ .vmem, ⟨23, _⟩ => ⟨S128x1, .f32⟩
  | .local _ .vmem, ⟨24, _⟩ => ⟨S1x1, .f32⟩
  | .local _ .vmem, ⟨25, _⟩ => ⟨S5000x1, .f32⟩
  | .local _ .vmem, ⟨26, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_11 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_v66 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S1_S1x1 : S1.ShapeCasts S1x1
  transposes_S1x128_S128x1_1_0 : S1x128.Transposes [1, 0] S128x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x1.size a ≤ S128x1.size a
  hwx2_2 : ∀ i : grid2.Coords, EltTy.bits .f32 = 32 ∨ (Rect.block (s := S128x1) S128x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x1.size a ≤ S128x1.size a
  hwx2_3 : ∀ i : grid2.Coords, EltTy.bits .f32 = 32 ∨ (Rect.block (s := S128x1) S128x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S100000x1.size a
  hwx2_5 : ∀ i : grid2.Coords, EltTy.bits .f32 = 32 ∨ (Rect.block (s := S100000x1) S5000x1.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v56) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S128x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S128x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S5000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S128x1 : Shape := ⟨2, ![128, 1]⟩
abbrev S1x1 : Shape := ⟨2, ![1, 1]⟩

abbrev nBuf : Space → Nat
  | .hbm => 128
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x128, .f32⟩
  | .hbm, ⟨9, _⟩ => ⟨S1, .f32⟩
  | .hbm, ⟨10, _⟩ => ⟨S1x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S128x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S1600000, .f32⟩
  | .hbm, ⟨53, _⟩ => ⟨S_, .f32⟩
  | .hbm, ⟨54, _⟩ => ⟨S100000, .f32⟩
  | .hbm, ⟨55, _⟩ => ⟨S1600000x1, .i32⟩
  | .hbm, ⟨56, _⟩ => ⟨S100000, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S128x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S128x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S1600000, .f32⟩
  | .hbm, ⟨89, _⟩ => ⟨S_, .f32⟩
  | .hbm, ⟨90, _⟩ => ⟨S100000, .f32⟩
  | .hbm, ⟨91, _⟩ => ⟨S1600000x1, .i32⟩
  | .hbm, ⟨92, _⟩ => ⟨S100000, .f32⟩
  | .hbm, ⟨93, _⟩ => ⟨S_, .i32⟩
  | .hbm, ⟨94, _⟩ => ⟨S1600000, .i32⟩
  | .hbm, ⟨95, _⟩ => ⟨S1600000, .i1⟩
  | .hbm, ⟨96, _⟩ => ⟨S_, .i32⟩
  | .hbm, ⟨97, _⟩ => ⟨S1600000, .i32⟩
  | .hbm, ⟨98, _⟩ => ⟨S1600000, .i32⟩
  | .hbm, ⟨99, _⟩ => ⟨S1600000, .i32⟩
  | .hbm, ⟨100, _⟩ => ⟨S1600000x1, .i32⟩
  | .hbm, ⟨101, _⟩ => ⟨S1600000x128, .f32⟩
  | .hbm, ⟨102, _⟩ => ⟨S_, .f32⟩
  | .hbm, ⟨103, _⟩ => ⟨S100000x128, .f32⟩
  | .hbm, ⟨104, _⟩ => ⟨S1600000x1, .i32⟩
  | .hbm, ⟨105, _⟩ => ⟨S100000x128, .f32⟩
  | .hbm, ⟨106, _⟩ => ⟨S_, .f32⟩
  | .hbm, ⟨107, _⟩ => ⟨S100000, .f32⟩
  | .hbm, ⟨108, _⟩ => ⟨S100000, .f32⟩
  | .hbm, ⟨109, _⟩ => ⟨S100000x1, .f32⟩
  | .hbm, ⟨110, _⟩ => ⟨S100000x128, .f32⟩
  | .hbm, ⟨111, _⟩ => ⟨S100000x128, .f32⟩
  | .hbm, ⟨112, _⟩ => ⟨S128x1, .f32⟩
  | .hbm, ⟨113, _⟩ => ⟨S100000x1, .f32⟩
  | .hbm, ⟨114, _⟩ => ⟨S1x1, .f32⟩
  | .hbm, ⟨115, _⟩ => ⟨S100000x1, .f32⟩
  | .hbm, ⟨116, _⟩ => ⟨S100000x1, .f32⟩
  | .hbm, ⟨117, _⟩ => ⟨S128x1, .f32⟩
  | .hbm, ⟨118, _⟩ => ⟨S100000x1, .f32⟩
  | .hbm, ⟨119, _⟩ => ⟨S100000x1, .f32⟩
  | .hbm, ⟨120, _⟩ => ⟨S100000x1, .f32⟩
  | .hbm, ⟨121, _⟩ => ⟨S100000x1, .f32⟩
  | .hbm, ⟨122, _⟩ => ⟨S_, .f32⟩
  | .hbm, ⟨123, _⟩ => ⟨S100000x1, .f32⟩
  | .hbm, ⟨124, _⟩ => ⟨S100000x1, .f32⟩
  | .hbm, ⟨125, _⟩ => ⟨S_, .f32⟩
  | .hbm, ⟨126, _⟩ => ⟨S100000x1, .f32⟩
  | .hbm, ⟨127, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_c_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_cst_10 : Ref sig .tc := ⟨.hbm, 87, rfl⟩
abbrev main_v60 : Ref sig .tc := ⟨.hbm, 88, rfl⟩
abbrev main_cst_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_12 : Ref sig .tc := ⟨.hbm, 93, rfl⟩
abbrev main_v64 : Ref sig .tc := ⟨.hbm, 94, rfl⟩
abbrev main_v65 : Ref sig .tc := ⟨.hbm, 95, rfl⟩
abbrev main_c_13 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_16 : Ref sig .tc := ⟨.hbm, 122, rfl⟩
abbrev main_v89 : Ref sig .tc := ⟨.hbm, 123, rfl⟩
abbrev main_v90 : Ref sig .tc := ⟨.hbm, 124, rfl⟩
abbrev main_cst_17 : Ref sig .tc := ⟨.hbm, 125, rfl⟩
abbrev main_v91 : Ref sig .tc := ⟨.hbm, 126, rfl⟩
abbrev main_v92 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S1x128_S128x1_1_0 : S1x128.Transposes [1, 0] S128x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.Spec.lean ====
/-
  Three mean-aggregating graph layers over the extended reals, as functions of arrays read index by index.

  A layer takes the node features `h` (one row per node) and the neighbour sums `A` (row `r` is the sum of
  `h`'s rows over the edges that end in node `r`), divides each row of `A` by the node's in-degree (at least one),
  and answers `A' · Wl + h · Wr + b`, row by row. Here the division is written as the product with the inverse of
  `max d 1`: on the extended reals `x / y` is `x · y⁻¹` for every `y ≠ 0`, and `max d 1 ≥ 1` is never zero, so
  "multiply by the reciprocal" and "divide" are the same function with no finiteness assumed (`mul_one_div`,
  `div_eq_mul_inv`). The three summands are added as `(A'·Wl + h·Wr) + b`; addition of extended reals is
  commutative and associative, so `(A'·Wl + b) + h·Wr` is the same number (`add_right_comm`).
-/
import Idealize.ShloMosaic.PureOps.Ideal
import Idealize.ShloMosaic.Lib.ValueIdx

noncomputable section

open scoped BigOperators

namespace Cert.Sage

open Idealize.ShloMosaic Idealize.ShloMosaic.ValueIdx

/-- A matrix of extended reals with `r` rows and `c` columns, read at a rank-2 index. -/
abbrev Mat (r c : Nat) : Type := (⟨2, ![r, c]⟩ : Shape).Idx → EReal
/-- A vector of extended reals of length `n`, read at a rank-1 index. -/
abbrev Col (n : Nat) : Type := (⟨1, ![n]⟩ : Shape).Idx → EReal

/-- Row `r` of `A` scaled by the inverse of `max d[r] 1`: the mean over the node's incoming edges. -/
def meanScale {R C : Nat} (A : Mat R C) (d : Col R) : Mat R C :=
  fun i => A i * (max (d (ix1 (i 0))) 1)⁻¹

/-- One layer before its activation: entry `(r, o)` is `Σₖ n[r,k]·wl[k,o] + Σₖ h[r,k]·wr[k,o] + b[0,o]`. -/
def dense {R K O : Nat} (n h : Mat R K) (wl wr : Mat K O) (b : Mat 1 O) : Mat R O :=
  fun i => (∑ k : Fin K, n (ix2 (i 0) k) * wl (ix2 k (i 1))) + (∑ k : Fin K, h (ix2 (i 0) k) * wr (ix2 k (i 1)))
    + b (ix2 0 (i 1))

/-- A layer followed by `max · 0`. -/
def denseRelu {R K O : Nat} (n h : Mat R K) (wl wr : Mat K O) (b : Mat 1 O) : Mat R O :=
  fun i => max (dense n h wl wr b i) 0

/-- The three layers in sequence, over an abstract aggregation `agg` (the neighbour sums of a feature matrix) and an
    abstract in-degree vector `d`: two layers with `max · 0`, then a layer without. -/
def net {N D : Nat} (agg : Mat N D → Mat N D) (d : Col N) (x : Mat N D)
    (wl0 wr0 : Mat D D) (b0 : Mat 1 D) (wl1 wr1 : Mat D D) (b1 : Mat 1 D) (wl2 wr2 : Mat D 1) (b2 : Mat 1 1) : Mat N 1 :=
  dense (meanScale (agg (denseRelu (meanScale (agg (denseRelu (meanScale (agg x) d) x wl0 wr0 b0)) d)
      (denseRelu (meanScale (agg x) d) x wl0 wr0 b0) wl1 wr1 b1)) d)
    (denseRelu (meanScale (agg (denseRelu (meanScale (agg x) d) x wl0 wr0 b0)) d)
      (denseRelu (meanScale (agg x) d) x wl0 wr0 b0) wl1 wr1 b1) wl2 wr2 b2

/-- Multiplying by the quotient `1 / y` is multiplying by `y⁻¹`, for `y ≠ 0`. -/
theorem mul_one_div (x y : EReal) (hy : y ≠ 0) : x * Ideal.div 1 y = x * y⁻¹ := by
  rw [Ideal.div, if_neg hy, one_mul]

/-- Dividing by `y ≠ 0` is multiplying by `y⁻¹`. -/
theorem div_eq_mul_inv (x y : EReal) (hy : y ≠ 0) : Ideal.div x y = x * y⁻¹ := by
  rw [Ideal.div, if_neg hy]

/-- `max d 1` is never zero. -/
theorem max_one_ne_zero (d : EReal) : max d 1 ≠ 0 := by
  have h : (0 : EReal) < max d 1 := lt_of_lt_of_le zero_lt_one (le_max_right d 1)
  exact ne_of_gt h

/-- The bias may be added before or after the second product. -/
theorem add_right_comm' (a b c : EReal) : a + c + b = a + b + c := add_right_comm a c b

end Cert.Sage

end
-- ==== Proof.KHost.lean ====
/-
  The kernel program's host-side arithmetic around its three dense layers, named: the edge list's two rows, the
  in-degree vector (a scatter-add of ones over the destination row), its clamped reciprocal as a column, the neighbour
  sums of a feature matrix (a scatter-add over the destination row of the rows gathered at the source row), their
  product with the reciprocal column, and the logistic function of the last layer. The scatter-add and the gather stay
  closed boxes here: the reference applies the very same operations.

  The one law proved: multiplying the neighbour sums by the broadcast column `1 / max d 1` is scaling row `r` by
  `(max d[r] 1)⁻¹` — on the extended reals `1 / y = y⁻¹` for `y ≠ 0`, and `max d 1 ≥ 1`.
-/
import proofs.«400740_j64338610095087_3_alg».proof.Proof.Gen.KernelIdeal
import proofs.«400740_j64338610095087_3_alg».proof.Proof.Spec
import Idealize.ShloMosaic.Lib.Pipeline.Value
import Idealize.ShloMosaic.Lib.ValueIdx

noncomputable section

namespace Cert.KernelIdeal.HostValue

open Cert.KernelIdeal Cert.KernelIdeal.Gen Idealize.ShloMosaic Idealize.ShloMosaic.ValueIdx

/-- Row `0` of the edge list: each edge's source node. -/
def srcRow (e : IVec S2x1600000 32) : IVec S1600000 32 :=
  shapeCast S1600000 (extractStridedSlice S1x1600000 ![0, 0] e slices_S2x1600000_S1x1600000_0_0) shapeCasts_S1x1600000_S1600000

/-- Row `1` of the edge list: each edge's destination node. -/
def dstRow (e : IVec S2x1600000 32) : IVec S1600000 32 :=
  shapeCast S1600000 (extractStridedSlice S1x1600000 ![1, 0] e slices_S2x1600000_S1x1600000_1_0) shapeCasts_S1x1600000_S1600000

/-- The in-degree of every node: ones added at the destinations. -/
def degree (dst : IVec S1600000 32) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 dst)
    (broadcastInDim S1600000 ![] bcast_S_S1600000 (constant (F := Ideal) S_ .f32 0x3F800000#32))

/-- The column `1 / max d 1`. -/
def invDegree (dst : IVec S1600000 32) : FVec Ideal S100000x1 .f32 :=
  broadcastInDim S100000x1 ![0] bcast_S100000_S100000x1_0
    (Host.divf (broadcastInDim S100000 ![] bcast_S_S100000 (constant (F := Ideal) S_ .f32 0x3F800000#32))
      (maximumf (degree dst) (broadcastInDim S100000 ![] bcast_S_S100000 (constant (F := Ideal) S_ .f32 0x3F800000#32))))

/-- The neighbour sums of a feature matrix: row `r` is the sum, over the edges ending in `r`, of the source's row. -/
def neighbourSum (src dst : IVec S1600000 32)
    (h : FVec Ideal S100000x128 .f32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The neighbour sums times a column broadcast along the rows. -/
def scaledSum (src dst : IVec S1600000 32) (col : FVec Ideal S100000x1 .f32)
    (h : FVec Ideal S100000x128 .f32) : FVec Ideal S100000x128 .f32 :=
  mulf (neighbourSum src dst h) (broadcastInDim S100000x128 ![0, 1] bcast_S100000x1_S100000x128_0_1 col)

/-- The logistic function `1 / (1 + e^(-y))`, entry by entry. -/
def logistic (y : FVec Ideal S100000x1 .f32) : FVec Ideal S100000x1 .f32 :=
  Host.divf (broadcastInDim S100000x1 ![] bcast_S_S100000x1 (constant (F := Ideal) S_ .f32 0x3F800000#32))
    (addf (broadcastInDim S100000x1 ![] bcast_S_S100000x1 (constant (F := Ideal) S_ .f32 0x3F800000#32)) (Host.exp (Host.negf y)))

/-- The word `0x3F800000` is the number one. -/
theorem one_word : Ideal.ofBits .f32 0x3F800000#32 = (1 : EReal) := by
  simp [Ideal.ofBits, Ideal.ieee]
  rw [← EReal.coe_mul]
  norm_num

/-- A column broadcast along the rows, read at an entry: the column's entry of that row. -/
theorem col_at (y : FVec Ideal S100000x1 .f32) (i : S100000x128.Idx) :
    broadcastInDim S100000x128 ![0, 1] bcast_S100000x1_S100000x128_0_1 y i
      = y (ix2 (⟨(i 0).val, (i 0).isLt⟩ : Fin 100000) (0 : Fin 1)) :=
  broadcastInDim_apply _ bcast_S100000x1_S100000x128_0_1 y i (ix2 (⟨(i 0).val, (i 0).isLt⟩ : Fin 100000) (0 : Fin 1))
    (fun a => match a with
      | ⟨0, _⟩ => by show (i 0).val = if (100000 : Nat) = 1 then 0 else (i 0).val; rw [if_neg (by decide)]
      | ⟨1, _⟩ => by show 0 = if (1 : Nat) = 1 then 0 else (i 1).val; rw [if_pos rfl])

/-- A vector laid out as a column, read at a row: the vector's entry. -/
theorem vec_at (y : FVec Ideal S100000 .f32) (r : Fin 100000) :
    broadcastInDim S100000x1 ![0] bcast_S100000_S100000x1_0 y (ix2 r (0 : Fin 1)) = y (ix1 r) :=
  broadcastInDim_apply _ bcast_S100000_S100000x1_0 y (ix2 r (0 : Fin 1)) (ix1 r)
    (fun a => match a with
      | ⟨0, _⟩ => by show r.val = if (100000 : Nat) = 1 then 0 else r.val; rw [if_neg (by decide)])

/-- The vector of ones, read anywhere, is one. -/
theorem ones_at (j : S100000.Idx) :
    broadcastInDim S100000 ![] bcast_S_S100000 (constant (F := Ideal) S_ .f32 0x3F800000#32) j = (1 : EReal) := by
  rw [broadcastInDim_apply _ bcast_S_S100000 (constant (F := Ideal) S_ .f32 0x3F800000#32) j ix0 (fun a => a.elim0),
    constant_apply, one_word]

/-- The host's quotient of two vectors, read at an entry. -/
theorem quotient_at (a b : FVec Ideal S100000 .f32) (j : S100000.Idx) : Host.divf a b j = Ideal.div (a j) (b j) := rfl

/-- Scaling by the reciprocal column is the mean over the incoming edges. -/
theorem scaledSum_invDegree (src dst : IVec S1600000 32) (h : FVec Ideal S100000x128 .f32) :
    scaledSum src dst (invDegree dst) h = Cert.Sage.meanScale (neighbourSum src dst h) (degree dst) := by
  funext i
  unfold scaledSum invDegree Cert.Sage.meanScale
  generalize neighbourSum src dst h = A
  generalize degree dst = d
  rw [mulf_apply, col_at, vec_at, quotient_at, maximumf_apply, ones_at,
    Cert.Sage.mul_one_div _ _ (Cert.Sage.max_one_ne_zero _)]
  rfl

end Cert.KernelIdeal.HostValue

end
-- ==== Proof.KValue.lean ====
/-
  The kernel program's two results as functions of its arguments: the contents of every buffer the three dense
  layers read, followed through the program from the launch memory.

  Between the layers the program only re-applies the same host arithmetic to the previous layer's output: the edge
  list's rows and the reciprocal in-degree column are computed once, before the first layer, and no later operation
  and no layer's write-back touches them, so at each layer's entry they still hold what the first stretch computed;
  each layer's input is the neighbour sums of the previous output times that column, which is the mean over the
  incoming edges. Each layer's output array is the layer function of the arrays it found (taken here as hypotheses,
  one per layer, about arbitrary entry contents), so the last array is the three-layer network of the arguments, and
  the second result is its logistic function.
-/
import proofs.«400740_j64338610095087_3_alg».proof.Proof.Gen.KernelIdeal.Frame
import proofs.«400740_j64338610095087_3_alg».proof.Proof.KHost
import Idealize.ShloMosaic.Lib.StableHlo.Run

set_option maxRecDepth 16384

noncomputable section

namespace Cert.KernelIdeal.RunValue

open Cert.KernelIdeal Cert.KernelIdeal.Gen Cert.KernelIdeal.HostValue
open Idealize.ShloMosaic Idealize.ShloMosaic.TcCoe Idealize.SL.Sem Idealize.ShloMosaic.StableHlo

variable (m : (ℓ : Loc nD τ sig) → Buf (Elt Ideal) ℓ) (ρ : Dev nD → PrngReg)

/-- "No operation of this stretch writes the buffer": every operation's result buffer is another reference. -/
local macro "no_write " ops:ident : tactic => `(tactic| (
  simp only [$ops:ident, List.flatten_cons, List.flatten_nil, List.append_nil, List.cons_append, List.nil_append,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## A buffer a stretch does not write keeps its contents -/

theorem keep0 (c : Dev nD) (b : Ref sig .tc)
    (h : (hostOps0 (F := Ideal)).Forall fun op => (Proc.devRef .tc b : DevRef τ sig) ∉ op.writes) :
    W1 m ρ c (Proc.devRef .tc b) = W0 m ρ c (Proc.devRef .tc b) :=
  StableHlo.after_of_forall_not_mem _ _ (List.forall_iff_forall_mem.mp h)
theorem keep1 (c : Dev nD) (b : Ref sig .tc)
    (h : (hostOps1 (F := Ideal)).Forall fun op => (Proc.devRef .tc b : DevRef τ sig) ∉ op.writes) :
    W3 m ρ c (Proc.devRef .tc b) = W2 m ρ c (Proc.devRef .tc b) :=
  StableHlo.after_of_forall_not_mem _ _ (List.forall_iff_forall_mem.mp h)
theorem keep2 (c : Dev nD) (b : Ref sig .tc)
    (h : (hostOps2 (F := Ideal)).Forall fun op => (Proc.devRef .tc b : DevRef τ sig) ∉ op.writes) :
    W5 m ρ c (Proc.devRef .tc b) = W4 m ρ c (Proc.devRef .tc b) :=
  StableHlo.after_of_forall_not_mem _ _ (List.forall_iff_forall_mem.mp h)
theorem keep3 (c : Dev nD) (b : Ref sig .tc)
    (h : (hostOps3 (F := Ideal)).Forall fun op => (Proc.devRef .tc b : DevRef τ sig) ∉ op.writes) :
    W7 m ρ c (Proc.devRef .tc b) = W6 m ρ c (Proc.devRef .tc b) :=
  StableHlo.after_of_forall_not_mem _ _ (List.forall_iff_forall_mem.mp h)

/-! ## What the first stretch computes: the first layer's entry -/

set_option maxHeartbeats 8000000 in
theorem src_at1 (c : Dev nD) : W1 m ρ c (Proc.devRef .tc main_v1) = srcRow (m ((c : Thread nD τ).loc main_arg1)) := by
  show StableHlo.after hostOps0 (W0 m ρ c) (Proc.devRef .tc main_v1) = _
  simp only [hostOps0]
  after_results_simp <;> rfl
set_option maxHeartbeats 8000000 in
theorem dst_at1 (c : Dev nD) : W1 m ρ c (Proc.devRef .tc main_v3) = dstRow (m ((c : Thread nD τ).loc main_arg1)) := by
  show StableHlo.after hostOps0 (W0 m ρ c) (Proc.devRef .tc main_v3) = _
  simp only [hostOps0]
  after_results_simp <;> rfl
set_option maxHeartbeats 8000000 in
theorem inv_at1 (c : Dev nD) : W1 m ρ c (Proc.devRef .tc main_v12) = invDegree (dstRow (m ((c : Thread nD τ).loc main_arg1))) := by
  show StableHlo.after hostOps0 (W0 m ρ c) (Proc.devRef .tc main_v12) = _
  simp only [hostOps0]
  after_results_simp <;> rfl
set_option maxHeartbeats 8000000 in
theorem mean_at1 (c : Dev nD) : V1 m ρ c main_v24 = scaledSum (srcRow (m ((c : Thread nD τ).loc main_arg1))) (dstRow (m ((c : Thread nD τ).loc main_arg1))) (invDegree (dstRow (m ((c : Thread nD τ).loc main_arg1)))) (m ((c : Thread nD τ).loc main_arg0)) := by
  show StableHlo.after hostOps0 (W0 m ρ c) (Proc.devRef .tc main_v24) = _
  simp only [hostOps0]
  after_results_simp <;> rfl
set_option maxHeartbeats 8000000 in
theorem bias_at1 (c : Dev nD) : V1 m ρ c main_v25 = shapeCast S1x128 (m ((c : Thread nD τ).loc main_arg3)) shapeCasts_S128_S1x128 := by
  show StableHlo.after hostOps0 (W0 m ρ c) (Proc.devRef .tc main_v25) = _
  simp only [hostOps0]
  after_results_simp <;> rfl
set_option maxHeartbeats 8000000 in
theorem wl_at1 (c : Dev nD) : V1 m ρ c main_v26 = transpose S128x128 [1, 0] (m ((c : Thread nD τ).loc main_arg2)) transposes_S128x128_S128x128_1_0 := by
  show StableHlo.after hostOps0 (W0 m ρ c) (Proc.devRef .tc main_v26) = _
  simp only [hostOps0]
  after_results_simp <;> rfl
set_option maxHeartbeats 8000000 in
theorem wr_at1 (c : Dev nD) : V1 m ρ c main_v27 = transpose S128x128 [1, 0] (m ((c : Thread nD τ).loc main_arg4)) transposes_S128x128_S128x128_1_0 := by
  show StableHlo.after hostOps0 (W0 m ρ c) (Proc.devRef .tc main_v27) = _
  simp only [hostOps0]
  after_results_simp <;> rfl

theorem feats_at1 (c : Dev nD) : V1 m ρ c main_arg0 = (m ((c : Thread nD τ).loc main_arg0)) :=
  (keep0 m ρ c main_arg0 (by no_write hostOps0)).trans rfl

/-- An argument the first stretch and the first layer leave alone still holds its launch contents after them. -/
theorem arg_at2 (c : Dev nD) (b : Ref sig .tc) (hb : ∀ w, Pipeline.arrRef spec0 w ≠ b)
    (h : (hostOps0 (F := Ideal)).Forall fun op => (Proc.devRef .tc b : DevRef τ sig) ∉ op.writes) :
    W2 m ρ c (Proc.devRef .tc b) = m ((c : Thread nD τ).loc b) :=
  (W2_of_ne m ρ c b hb).trans ((keep0 m ρ c b h).trans rfl)

/-! ## The second layer's entry -/

set_option maxHeartbeats 8000000 in
theorem mean_at3 (c : Dev nD) : V3 m ρ c main_v40 = scaledSum (W2 m ρ c (Proc.devRef .tc main_v1)) (W2 m ρ c (Proc.devRef .tc main_v3)) (W2 m ρ c (Proc.devRef .tc main_v12)) (W2 m ρ c (Proc.devRef .tc main_v28)) := by
  show StableHlo.after hostOps1 (W2 m ρ c) (Proc.devRef .tc main_v40) = _
  simp only [hostOps1]
  after_results_simp <;> rfl
set_option maxHeartbeats 8000000 in
theorem bias_at3 (c : Dev nD) : V3 m ρ c main_v41 = shapeCast S1x128 (W2 m ρ c (Proc.devRef .tc main_arg6)) shapeCasts_S128_S1x128 := by
  show StableHlo.after hostOps1 (W2 m ρ c) (Proc.devRef .tc main_v41) = _
  simp only [hostOps1]
  after_results_simp <;> rfl
set_option maxHeartbeats 8000000 in
theorem wl_at3 (c : Dev nD) : V3 m ρ c main_v42 = transpose S128x128 [1, 0] (W2 m ρ c (Proc.devRef .tc main_arg5)) transposes_S128x128_S128x128_1_0 := by
  show StableHlo.after hostOps1 (W2 m ρ c) (Proc.devRef .tc main_v42) = _
  simp only [hostOps1]
  after_results_simp <;> rfl
set_option maxHeartbeats 8000000 in
theorem wr_at3 (c : Dev nD) : V3 m ρ c main_v43 = transpose S128x128 [1, 0] (W2 m ρ c (Proc.devRef .tc main_arg7)) transposes_S128x128_S128x128_1_0 := by
  show StableHlo.after hostOps1 (W2 m ρ c) (Proc.devRef .tc main_v43) = _
  simp only [hostOps1]
  after_results_simp <;> rfl

theorem feats_at3 (c : Dev nD) : V3 m ρ c main_v28 = W2 m ρ c (Proc.devRef .tc main_v28) :=
  keep1 m ρ c main_v28 (by no_write hostOps1)

theorem src_at2 (c : Dev nD) : W2 m ρ c (Proc.devRef .tc main_v1) = srcRow (m ((c : Thread nD τ).loc main_arg1)) :=
  (W2_of_ne m ρ c main_v1 (by decide)).trans (src_at1 m ρ c)
theorem dst_at2 (c : Dev nD) : W2 m ρ c (Proc.devRef .tc main_v3) = dstRow (m ((c : Thread nD τ).loc main_arg1)) :=
  (W2_of_ne m ρ c main_v3 (by decide)).trans (dst_at1 m ρ c)
theorem inv_at2 (c : Dev nD) : W2 m ρ c (Proc.devRef .tc main_v12) = invDegree (dstRow (m ((c : Thread nD τ).loc main_arg1))) :=
  (W2_of_ne m ρ c main_v12 (by decide)).trans (inv_at1 m ρ c)

/-- The same, two boundaries later: neither the second stretch nor the second layer writes the buffer. -/
theorem carry4 (c : Dev nD) (b : Ref sig .tc) (hb : ∀ w, Pipeline.arrRef spec1 w ≠ b)
    (h : (hostOps1 (F := Ideal)).Forall fun op => (Proc.devRef .tc b : DevRef τ sig) ∉ op.writes) :
    W4 m ρ c (Proc.devRef .tc b) = W2 m ρ c (Proc.devRef .tc b) :=
  (W4_of_ne m ρ c b hb).trans (keep1 m ρ c b h)

/-! ## The third layer's entry -/

set_option maxHeartbeats 8000000 in
theorem mean_at5 (c : Dev nD) : V5 m ρ c main_v56 = scaledSum (W4 m ρ c (Proc.devRef .tc main_v1)) (W4 m ρ c (Proc.devRef .tc main_v3)) (W4 m ρ c (Proc.devRef .tc main_v12)) (W4 m ρ c (Proc.devRef .tc main_v44)) := by
  show StableHlo.after hostOps2 (W4 m ρ c) (Proc.devRef .tc main_v56) = _
  simp only [hostOps2]
  after_results_simp <;> rfl
set_option maxHeartbeats 8000000 in
theorem bias_at5 (c : Dev nD) : V5 m ρ c main_v57 = shapeCast S1x1 (W4 m ρ c (Proc.devRef .tc main_arg9)) shapeCasts_S1_S1x1 := by
  show StableHlo.after hostOps2 (W4 m ρ c) (Proc.devRef .tc main_v57) = _
  simp only [hostOps2]
  after_results_simp <;> rfl
set_option maxHeartbeats 8000000 in
theorem wl_at5 (c : Dev nD) : V5 m ρ c main_v58 = transpose S128x1 [1, 0] (W4 m ρ c (Proc.devRef .tc main_arg8)) transposes_S1x128_S128x1_1_0 := by
  show StableHlo.after hostOps2 (W4 m ρ c) (Proc.devRef .tc main_v58) = _
  simp only [hostOps2]
  after_results_simp <;> rfl
set_option maxHeartbeats 8000000 in
theorem wr_at5 (c : Dev nD) : V5 m ρ c main_v59 = transpose S128x1 [1, 0] (W4 m ρ c (Proc.devRef .tc main_arg10)) transposes_S1x128_S128x1_1_0 := by
  show StableHlo.after hostOps2 (W4 m ρ c) (Proc.devRef .tc main_v59) = _
  simp only [hostOps2]
  after_results_simp <;> rfl

theorem feats_at5 (c : Dev nD) : V5 m ρ c main_v44 = W4 m ρ c (Proc.devRef .tc main_v44) :=
  keep2 m ρ c main_v44 (by no_write hostOps2)

theorem src_at4 (c : Dev nD) : W4 m ρ c (Proc.devRef .tc main_v1) = srcRow (m ((c : Thread nD τ).loc main_arg1)) :=
  (carry4 m ρ c main_v1 (by decide) (by no_write hostOps1)).trans (src_at2 m ρ c)
theorem dst_at4 (c : Dev nD) : W4 m ρ c (Proc.devRef .tc main_v3) = dstRow (m ((c : Thread nD τ).loc main_arg1)) :=
  (carry4 m ρ c main_v3 (by decide) (by no_write hostOps1)).trans (dst_at2 m ρ c)
theorem inv_at4 (c : Dev nD) : W4 m ρ c (Proc.devRef .tc main_v12) = invDegree (dstRow (m ((c : Thread nD τ).loc main_arg1))) :=
  (carry4 m ρ c main_v12 (by decide) (by no_write hostOps1)).trans (inv_at2 m ρ c)
theorem arg_at4 (c : Dev nD) (b : Ref sig .tc) (hb1 : ∀ w, Pipeline.arrRef spec1 w ≠ b) (hb0 : ∀ w, Pipeline.arrRef spec0 w ≠ b)
    (h1 : (hostOps1 (F := Ideal)).Forall fun op => (Proc.devRef .tc b : DevRef τ sig) ∉ op.writes)
    (h0 : (hostOps0 (F := Ideal)).Forall fun op => (Proc.devRef .tc b : DevRef τ sig) ∉ op.writes) :
    W4 m ρ c (Proc.devRef .tc b) = m ((c : Thread nD τ).loc b) :=
  (carry4 m ρ c b hb1 h1).trans (arg_at2 m ρ c b hb0 h0)

/-! ## The end of the run -/

set_option maxHeartbeats 8000000 in
theorem prob_at7 (c : Dev nD) : W7 m ρ c (Proc.devRef .tc main_v66) = HostValue.logistic (W6 m ρ c (Proc.devRef .tc main_v60)) := by
  show StableHlo.after hostOps3 (W6 m ρ c) (Proc.devRef .tc main_v66) = _
  simp only [hostOps3]
  after_results_simp <;> rfl

theorem logit_at7 (c : Dev nD) : W7 m ρ c (Proc.devRef .tc main_v60) = W6 m ρ c (Proc.devRef .tc main_v60) :=
  keep3 m ρ c main_v60 (by no_write hostOps3)

/-! ## The three layers, as functions of the arguments -/

/-- The first layer's output: the mean of the input features over each node's incoming edges and the features
    themselves through the first pair of weight matrices, the bias added, negatives cut to zero. -/
def hidden1 (c : Dev nD) : FVec Ideal S100000x128 .f32 :=
  Cert.Sage.denseRelu (Cert.Sage.meanScale (neighbourSum (srcRow (m ((c : Thread nD τ).loc main_arg1))) (dstRow (m ((c : Thread nD τ).loc main_arg1))) (m ((c : Thread nD τ).loc main_arg0))) (degree (dstRow (m ((c : Thread nD τ).loc main_arg1)))))
    (m ((c : Thread nD τ).loc main_arg0)) (transpose S128x128 [1, 0] (m ((c : Thread nD τ).loc main_arg2)) transposes_S128x128_S128x128_1_0) (transpose S128x128 [1, 0] (m ((c : Thread nD τ).loc main_arg4)) transposes_S128x128_S128x128_1_0) (shapeCast S1x128 (m ((c : Thread nD τ).loc main_arg3)) shapeCasts_S128_S1x128)

/-- The second layer's output: the same on the first layer's output, through the second pair of matrices. -/
def hidden2 (c : Dev nD) : FVec Ideal S100000x128 .f32 :=
  Cert.Sage.denseRelu (Cert.Sage.meanScale (neighbourSum (srcRow (m ((c : Thread nD τ).loc main_arg1))) (dstRow (m ((c : Thread nD τ).loc main_arg1))) (hidden1 m c)) (degree (dstRow (m ((c : Thread nD τ).loc main_arg1)))))
    (hidden1 m c) (transpose S128x128 [1, 0] (m ((c : Thread nD τ).loc main_arg5)) transposes_S128x128_S128x128_1_0) (transpose S128x128 [1, 0] (m ((c : Thread nD τ).loc main_arg7)) transposes_S128x128_S128x128_1_0) (shapeCast S1x128 (m ((c : Thread nD τ).loc main_arg6)) shapeCasts_S128_S1x128)

/-- The third layer's output, one number per node, nothing cut. -/
def logits (c : Dev nD) : FVec Ideal S100000x1 .f32 :=
  Cert.Sage.dense (Cert.Sage.meanScale (neighbourSum (srcRow (m ((c : Thread nD τ).loc main_arg1))) (dstRow (m ((c : Thread nD τ).loc main_arg1))) (hidden2 m c)) (degree (dstRow (m ((c : Thread nD τ).loc main_arg1)))))
    (hidden2 m c) (transpose S128x1 [1, 0] (m ((c : Thread nD τ).loc main_arg8)) transposes_S1x128_S128x1_1_0) (transpose S128x1 [1, 0] (m ((c : Thread nD τ).loc main_arg10)) transposes_S1x128_S128x1_1_0) (shapeCast S1x1 (m ((c : Thread nD τ).loc main_arg9)) shapeCasts_S1_S1x1)

/-- The three layers are the network of the specification over this program's neighbour sums and in-degrees. -/
theorem logits_eq_net (c : Dev nD) :
    logits m c = Cert.Sage.net (neighbourSum (srcRow (m ((c : Thread nD τ).loc main_arg1))) (dstRow (m ((c : Thread nD τ).loc main_arg1)))) (degree (dstRow (m ((c : Thread nD τ).loc main_arg1)))) (m ((c : Thread nD τ).loc main_arg0))
      (transpose S128x128 [1, 0] (m ((c : Thread nD τ).loc main_arg2)) transposes_S128x128_S128x128_1_0) (transpose S128x128 [1, 0] (m ((c : Thread nD τ).loc main_arg4)) transposes_S128x128_S128x128_1_0) (shapeCast S1x128 (m ((c : Thread nD τ).loc main_arg3)) shapeCasts_S128_S1x128)
      (transpose S128x128 [1, 0] (m ((c : Thread nD τ).loc main_arg5)) transposes_S128x128_S128x128_1_0) (transpose S128x128 [1, 0] (m ((c : Thread nD τ).loc main_arg7)) transposes_S128x128_S128x128_1_0) (shapeCast S1x128 (m ((c : Thread nD τ).loc main_arg6)) shapeCasts_S128_S1x128)
      (transpose S128x1 [1, 0] (m ((c : Thread nD τ).loc main_arg8)) transposes_S1x128_S128x1_1_0) (transpose S128x1 [1, 0] (m ((c : Thread nD τ).loc main_arg10)) transposes_S1x128_S128x1_1_0) (shapeCast S1x1 (m ((c : Thread nD τ).loc main_arg9)) shapeCasts_S1_S1x1) := rfl

/-- What a layer's output array holds, for whatever contents the layer is entered with: the layer function of the five
    arrays it reads. One statement per layer. -/
abbrev Layer0Value : Prop := ∀ (V : (c : Dev nD) → (b : Ref sig .tc) → Buf (Elt Ideal) ((c : Thread nD τ).loc b)) (c : Dev nD),
  (dat0 (F := Ideal) V c).arrAt 5 cfg0.N = Cert.Sage.denseRelu (V c main_v24) (V c main_arg0) (V c main_v26) (V c main_v27) (V c main_v25)
abbrev Layer1Value : Prop := ∀ (V : (c : Dev nD) → (b : Ref sig .tc) → Buf (Elt Ideal) ((c : Thread nD τ).loc b)) (c : Dev nD),
  (dat1 (F := Ideal) V c).arrAt 5 cfg1.N = Cert.Sage.denseRelu (V c main_v40) (V c main_v28) (V c main_v42) (V c main_v43) (V c main_v41)
abbrev Layer2Value : Prop := ∀ (V : (c : Dev nD) → (b : Ref sig .tc) → Buf (Elt Ideal) ((c : Thread nD τ).loc b)) (c : Dev nD),
  (dat2 (F := Ideal) V c).arrAt 5 cfg2.N = Cert.Sage.dense (V c main_v56) (V c main_v44) (V c main_v58) (V c main_v59) (V c main_v57)

/-- After the first layer its output array holds `hidden1`. -/
theorem hidden1_at2 (h0 : Layer0Value) (c : Dev nD) : W2 m ρ c (Proc.devRef .tc main_v28) = hidden1 m c := by
  rw [show W2 m ρ c (Proc.devRef .tc main_v28) = (dat0 (V1 m ρ) c).arrAt 5 cfg0.N from W2_arr m ρ c 5, h0 (V1 m ρ) c,
    mean_at1, feats_at1, wl_at1, wr_at1, bias_at1, scaledSum_invDegree]
  rfl

/-- After the second layer its output array holds `hidden2`. -/
theorem hidden2_at4 (h0 : Layer0Value) (h1 : Layer1Value) (c : Dev nD) :
    W4 m ρ c (Proc.devRef .tc main_v44) = hidden2 m c := by
  rw [show W4 m ρ c (Proc.devRef .tc main_v44) = (dat1 (V3 m ρ) c).arrAt 5 cfg1.N from W4_arr m ρ c 5, h1 (V3 m ρ) c,
    mean_at3, feats_at3, wl_at3, wr_at3, bias_at3, src_at2, dst_at2, inv_at2, hidden1_at2 m ρ h0 c,
    arg_at2 m ρ c main_arg5 (by decide) (by no_write hostOps0), arg_at2 m ρ c main_arg6 (by decide) (by no_write hostOps0),
    arg_at2 m ρ c main_arg7 (by decide) (by no_write hostOps0), scaledSum_invDegree]
  rfl

/-- After the third layer its output array holds `logits`. -/
theorem logits_at6 (h0 : Layer0Value) (h1 : Layer1Value) (h2 : Layer2Value) (c : Dev nD) :
    W6 m ρ c (Proc.devRef .tc main_v60) = logits m c := by
  rw [show W6 m ρ c (Proc.devRef .tc main_v60) = (dat2 (V5 m ρ) c).arrAt 5 cfg2.N from W6_arr m ρ c 5, h2 (V5 m ρ) c,
    mean_at5, feats_at5, wl_at5, wr_at5, bias_at5, src_at4, dst_at4, inv_at4, hidden2_at4 m ρ h0 h1 c,
    arg_at4 m ρ c main_arg8 (by decide) (by decide) (by no_write hostOps1) (by no_write hostOps0),
    arg_at4 m ρ c main_arg9 (by decide) (by decide) (by no_write hostOps1) (by no_write hostOps0),
    arg_at4 m ρ c main_arg10 (by decide) (by decide) (by no_write hostOps1) (by no_write hostOps0), scaledSum_invDegree]
  rfl

/-- The first result: the third layer's output. -/
theorem out0_value (h0 : Layer0Value) (h1 : Layer1Value) (h2 : Layer2Value) (c : Dev nD) :
    W7 m ρ c (Proc.devRef .tc main_v60) = logits m c :=
  (logit_at7 m ρ c).trans (logits_at6 m ρ h0 h1 h2 c)

/-- The second result: its logistic function. -/
theorem out1_value (h0 : Layer0Value) (h1 : Layer1Value) (h2 : Layer2Value) (c : Dev nD) :
    W7 m ρ c (Proc.devRef .tc main_v66) = HostValue.logistic (logits m c) := by
  rw [prob_at7, logits_at6 m ρ h0 h1 h2 c]

end Cert.KernelIdeal.RunValue

end
-- ==== Proof.Region0.lean ====
/-
  The first dense layer, read as one function of whole arrays.

  Twenty grid points each take a block of 5000 rows of the neighbour means `A` and of the node features `H`, together
  with the whole weight matrices `Wl`, `Wr` and the bias row `b`, and write back the block
  `max (A·Wl + H·Wr + b) 0`. Over the extended reals the narrowing of the operands is the identity and a product
  accumulated from zero is the plain sum `Σₖ l[p,k] · r[k,q]`, so entry `(p, q)` of the block written at point `t` is
  entry `(5000 t + p, q)` of the layer applied to the whole arrays. The twenty blocks tile the 100000 rows, so the
  output array ends up holding that layer everywhere.
-/
import proofs.«400740_j64338610095087_3_alg».proof.Proof.Gen.KernelIdeal.Frame
import proofs.«400740_j64338610095087_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.RegionValue
open Idealize.ShloMosaic Idealize.ShloMosaic.TcCoe Idealize.SL.Sem Cert.KernelIdeal Cert.KernelIdeal.Gen
open Idealize.ShloMosaic.ValueIdx
open scoped BigOperators

namespace Layer0

/-! ## The product of a block of rows with a square matrix, entry by entry -/

/-- The left operand is read in the output's row. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the summation index. -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the summation index. -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand is read in the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product accumulated from zero is, at entry `(p, q)`, the sum over `k` of `l[p,k] · r[k,q]`. -/
theorem prod_from_zero_apply {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The body's stored value, entry by entry -/

/-- Entry `(p, q)` of what the body stores: both products, the bias row, and the maximum with zero. -/
theorem payload_apply (x0 x1 : Vec Ideal S5000x128 .f32) (x2 x3 : Vec Ideal S128x128 .f32) (x4 : Vec Ideal S1x128 .f32)
    (p : Fin 5000) (q : Fin 128) :
    k0_pay1 x0 x1 x2 x3 x4 (ix2 p q)
      = max ((∑ k : Fin 128, x0 (ix2 p k) * x2 (ix2 k q)) + (∑ k : Fin 128, x1 (ix2 p k) * x3 (ix2 k q)) + x4 (ix2 0 q)) 0 := by
  unfold k0_pay1
  simp only [shapeCast_self]
  rw [maximumf_apply, addf_apply, addf_apply, prod_from_zero_apply, prod_from_zero_apply, broadcastTo_1b_ab_apply, broadcast_apply]
  simp only [truncf_apply]
  show max _ (Ideal.ofBits .f32 0x00000000#32) = _
  rw [Ideal.ofBits_zero_f32]

/-! ## From the blocks to the whole array -/

section Blocks

variable (V : (c : Dev nD) → (b : Ref sig .tc) → Buf (Elt Ideal) ((c : Thread nD τ).loc b))

theorem origin_zero : (![0, 0] : Fin 2 → Nat) = fun _ => 0 := funext fun a => by fin_cases a <;> rfl

/-- The block index maps over the twenty grid points: the two row-block inputs and the output sit at block `(t, 0)`,
    the two weight matrices and the bias row at block `(0, 0)`. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` is row `5000 t + p` of the array. -/
def row (t : Fin cfg0.N) (p : Fin 5000) : Fin 100000 :=
  ⟨t.val * 5000 + p.val, by have h : t.val < 20 := N_0 ▸ t.isLt; have := p.isLt; omega⟩

/-- The layer with its maximum, at an entry given by its two coordinates. -/
theorem denseRelu_apply (A H : Cert.Sage.Mat 100000 128) (Wl Wr : Cert.Sage.Mat 128 128) (b : Cert.Sage.Mat 1 128)
    (r : Fin 100000) (q : Fin 128) :
    Cert.Sage.denseRelu A H Wl Wr b (ix2 r q)
      = max ((∑ k : Fin 128, A (ix2 r k) * Wl (ix2 k q)) + (∑ k : Fin 128, H (ix2 r k) * Wr (ix2 k q)) + b (ix2 0 q)) 0 := rfl

/-- Entry `(p, q)` of the output's block `t` is entry `(5000 t + p, q)` of the array. -/
theorem out_emb (t : Fin cfg0.N) (p : Fin 5000) (q : Fin 128) :
    ((cfg0.win 5).blk t).view.emb (ix2 p q) = ix2 (row t p) q := by
  obtain ⟨-, -, -, -, -, -, -, -, -, -, e0, e1⟩ := block_indices t
  funext a; apply Fin.ext
  match a with
  | ⟨0, _⟩ => show win0_5.index t (0 : Fin 2) * 5000 + 1 * p.val = t.val * 5000 + p.val; omega
  | ⟨1, _⟩ => show win0_5.index t (1 : Fin 2) * 128 + 1 * q.val = q.val; omega

/-- The first input's block `t` holds rows `5000 t …` of the neighbour means. -/
theorem in0_apply (c : Dev nD) (t : Fin cfg0.N) (p : Fin 5000) (k : Fin 128) :
    iblk0 V c 0 t (ix2 p k) = V c main_v24 (ix2 (row t p) k) := by
  obtain ⟨e0, e1, -⟩ := block_indices t
  show V c main_v24 (((cfg0.win 0).blk t).view.emb (ix2 p k)) = V c main_v24 (ix2 (row t p) k)
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The second input's block `t` holds rows `5000 t …` of the node features. -/
theorem in1_apply (c : Dev nD) (t : Fin cfg0.N) (p : Fin 5000) (k : Fin 128) :
    iblk0 V c 1 t (ix2 p k) = V c main_arg0 (ix2 (row t p) k) := by
  obtain ⟨-, -, e0, e1, -⟩ := block_indices t
  show V c main_arg0 (((cfg0.win 1).blk t).view.emb (ix2 p k)) = V c main_arg0 (ix2 (row t p) k)
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

/-- The third input is the whole left weight matrix at every point. -/
theorem in2_apply (c : Dev nD) (t : Fin cfg0.N) (k : Fin 128) (q : Fin 128) :
    iblk0 V c 2 t (ix2 k q) = V c main_v26 (ix2 k q) := by
  obtain ⟨-, -, -, -, e0, e1, -⟩ := block_indices t
  show V c main_v26 (((cfg0.win 2).blk t).view.emb (ix2 k q)) = V c main_v26 (ix2 k q)
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The fourth input is the whole right weight matrix at every point. -/
theorem in3_apply (c : Dev nD) (t : Fin cfg0.N) (k : Fin 128) (q : Fin 128) :
    iblk0 V c 3 t (ix2 k q) = V c main_v27 (ix2 k q) := by
  obtain ⟨-, -, -, -, -, -, e0, e1, -⟩ := block_indices t
  show V c main_v27 (((cfg0.win 3).blk t).view.emb (ix2 k q)) = V c main_v27 (ix2 k q)
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The fifth input is the whole bias row at every point. -/
theorem in4_apply (c : Dev nD) (t : Fin cfg0.N) (u : Fin 1) (q : Fin 128) :
    iblk0 V c 4 t (ix2 u q) = V c main_v25 (ix2 u q) := by
  obtain ⟨-, -, -, -, -, -, -, -, e0, e1, -⟩ := block_indices t
  show V c main_v25 (((cfg0.win 4).blk t).view.emb (ix2 u q)) = V c main_v25 (ix2 u q)
  refine congrArg _ (funext fun a => Fin.ext ?_)
  match a with
  | ⟨0, _⟩ => show win0_4.index t (0 : Fin 2) * 1 + 1 * u.val = u.val; omega
  | ⟨1, _⟩ => show win0_4.index t (1 : Fin 2) * 128 + 1 * q.val = q.val; omega

/-- What grid point `t` writes back is block `t` of the layer of the whole arrays. -/
theorem flushed_eq (c : Dev nD) (t : Fin cfg0.N) :
    (dat0 (F := Ideal) V c).flushed 5 t
      = ((cfg0.win 5).blk t).view.read (Elt Ideal)
          (Cert.Sage.denseRelu (V c main_v24) (V c main_arg0) (V c main_v26) (V c main_v27) (V c main_v25)) := by
  show (cfg0.win 5).cut (grid0.coords t) ((dat0 V c).after 5 t) = _
  rw [after0_5]
  unfold out0_5
  rw [View.canon_unit_zero origin_zero]
  simp only [View.ld_unit_zero (S := S5000x128) origin_zero, View.ld_unit_zero (S := S128x128) origin_zero,
    View.ld_unit_zero (S := S1x128) origin_zero]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (iblk0 V c 3 t) (iblk0 V c 4 t) (ix2 p q)
    = Cert.Sage.denseRelu (V c main_v24) (V c main_arg0) (V c main_v26) (V c main_v27) (V c main_v25)
        (((cfg0.win 5).blk t).view.emb (ix2 p q))
  rw [payload_apply, out_emb, denseRelu_apply]
  simp only [in0_apply, in1_apply, in2_apply, in3_apply, in4_apply]

/-- An index of the array lies in the output's block `t` exactly when each coordinate lies in the block's range. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v28).slice (win0_5.rect t)).set ↔ _
  rw [View.set_slice_whole, Rect.mem_set_unit]
  exact Iff.rfl

/-- The twenty blocks of 5000 rows tile the 100000 rows: row `r` lies in block `r / 5000`. -/
theorem blocks_cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, -, -, -, -, -, -, e0, e1⟩ := block_indices t
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

end Blocks

end Layer0

/-- The output array after the twenty points is the layer of the arrays the region found. -/
theorem region0_value (V : (c : Dev nD) → (b : Ref sig .tc) → Buf (Elt Ideal) ((c : Thread nD τ).loc b)) (c : Dev nD) :
    (dat0 (F := Ideal) V c).arrAt 5 cfg0.N
      = Cert.Sage.denseRelu (V c main_v24) (V c main_arg0) (V c main_v26) (V c main_v27) (V c main_v25) :=
  (dat0 (F := Ideal) V c).arrAt_eq_of_cover 5
    (Cert.Sage.denseRelu (V c main_v24) (V c main_arg0) (V c main_v26) (V c main_v27) (V c main_v25))
    (fun t _ => Layer0.flushed_eq V c t) Layer0.blocks_cover

end Cert.KernelIdeal.RegionValue
end
-- ==== Proof.Region1.lean ====
/-
  The second dense layer, read as one function of whole arrays.

  The layer has the shape of the first one: twenty grid points, each with 5000 rows of the neighbour means of the hidden
  features and 5000 rows of the hidden features themselves, the two whole 128 × 128 weight matrices and the bias row;
  each point writes back `max (A·Wl + H·Wr + b) 0` for its rows. With the operands' narrowing the identity on the
  extended reals and a product accumulated from zero equal to `Σₖ l[p,k] · r[k,q]`, the block written at point `t` is
  rows `5000 t … 5000 t + 4999` of the layer of the whole arrays, and the blocks fill all 100000 rows.
-/
import proofs.«400740_j64338610095087_3_alg».proof.Proof.Gen.KernelIdeal.Frame
import proofs.«400740_j64338610095087_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.RegionValue
open Idealize.ShloMosaic Idealize.ShloMosaic.TcCoe Idealize.SL.Sem Cert.KernelIdeal Cert.KernelIdeal.Gen
open Idealize.ShloMosaic.ValueIdx
open scoped BigOperators

namespace Layer1

/-! ## One entry of a 5000 × 128 by 128 × 128 product -/

/-- Axis 0 of the left operand's index is the output's row. -/
theorem left_axis0 (i : S5000x128.Idx) (s : dot_S5000x128_S128x128_S5000x128_1_0_0_1_n_n.contr.Idx) :
    (dot_S5000x128_S128x128_S5000x128_1_0_0_1_n_n.lhsIdx i s 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Axis 1 of the left operand's index is the summed index. -/
theorem left_axis1 (i : S5000x128.Idx) (s : dot_S5000x128_S128x128_S5000x128_1_0_0_1_n_n.contr.Idx) :
    (dot_S5000x128_S128x128_S5000x128_1_0_0_1_n_n.lhsIdx i s 1).val = (s ⟨0, by decide⟩).val :=
  dot_S5000x128_S128x128_S5000x128_1_0_0_1_n_n.lhsIdx_val_of_single rfl i s
/-- Axis 0 of the right operand's index is the summed index. -/
theorem right_axis0 (i : S5000x128.Idx) (s : dot_S5000x128_S128x128_S5000x128_1_0_0_1_n_n.contr.Idx) :
    (dot_S5000x128_S128x128_S5000x128_1_0_0_1_n_n.rhsIdx i s 0).val = (s ⟨0, by decide⟩).val :=
  dot_S5000x128_S128x128_S5000x128_1_0_0_1_n_n.rhsIdx_val_of_single rfl i s
/-- Axis 1 of the right operand's index is the output's column. -/
theorem right_axis1 (i : S5000x128.Idx) (s : dot_S5000x128_S128x128_S5000x128_1_0_0_1_n_n.contr.Idx) :
    (dot_S5000x128_S128x128_S5000x128_1_0_0_1_n_n.rhsIdx i s 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Added to a zero accumulator, the product's entry `(p, q)` is `Σₖ l[p,k] · r[k,q]`. -/
theorem product_entry {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have hl : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact left_axis0 _ _
    | ⟨1, _⟩ => exact (left_axis1 _ _).trans hk)
  have hr : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (right_axis0 _ _).trans hk
    | ⟨1, _⟩ => exact right_axis1 _ _)
  rw [hl, hr]

/-! ## One entry of what the body stores -/

/-- The stored block at `(p, q)`: the sum of the two products' entries and of the bias at column `q`, or zero if that is
    negative. The reshapes keep the shape, the narrowings keep the value, the bias row is repeated down the rows. -/
theorem stored_entry (a h : Vec Ideal S5000x128 .f32) (wl wr : Vec Ideal S128x128 .f32) (b : Vec Ideal S1x128 .f32)
    (p : Fin 5000) (q : Fin 128) :
    k1_pay1 a h wl wr b (ix2 p q)
      = max ((∑ k : Fin 128, a (ix2 p k) * wl (ix2 k q)) + (∑ k : Fin 128, h (ix2 p k) * wr (ix2 k q)) + b (ix2 0 q)) 0 := by
  unfold k1_pay1
  simp only [shapeCast_self]
  rw [maximumf_apply, addf_apply, addf_apply, product_entry, product_entry, broadcastTo_1b_ab_apply, broadcast_apply]
  simp only [truncf_apply]
  show max _ (Ideal.ofBits .f32 0x00000000#32) = _
  rw [Ideal.ofBits_zero_f32]

/-! ## Blocks and the whole array -/

section Tiling

variable (V : (c : Dev nD) → (b : Ref sig .tc) → Buf (Elt Ideal) ((c : Thread nD τ).loc b))

theorem corner : (![0, 0] : Fin 2 → Nat) = fun _ => 0 := funext fun a => by fin_cases a <;> rfl

/-- Where each window's block sits at grid point `t`: windows 0, 1 and 5 at block row `t`, windows 2, 3 and 4 at the
    one block they have; every window at block column 0. -/
theorem block_at : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The array row that is row `p` of block `t`. -/
def arrayRow (t : Fin cfg1.N) (p : Fin 5000) : Fin 100000 :=
  ⟨t.val * 5000 + p.val, by have h : t.val < 20 := N_1 ▸ t.isLt; have := p.isLt; omega⟩

/-- The layer with its maximum at row `r`, column `q`. -/
theorem layer_entry (A H : Cert.Sage.Mat 100000 128) (Wl Wr : Cert.Sage.Mat 128 128) (b : Cert.Sage.Mat 1 128)
    (r : Fin 100000) (q : Fin 128) :
    Cert.Sage.denseRelu A H Wl Wr b (ix2 r q)
      = max ((∑ k : Fin 128, A (ix2 r k) * Wl (ix2 k q)) + (∑ k : Fin 128, H (ix2 r k) * Wr (ix2 k q)) + b (ix2 0 q)) 0 := rfl

/-- The output block's entry `(p, q)` is the array's entry `(5000 t + p, q)`. -/
theorem out_entry (t : Fin cfg1.N) (p : Fin 5000) (q : Fin 128) :
    ((cfg1.win 5).blk t).view.emb (ix2 p q) = ix2 (arrayRow t p) q := by
  obtain ⟨-, -, -, -, -, -, -, -, -, -, e0, e1⟩ := block_at t
  funext a; apply Fin.ext
  match a with
  | ⟨0, _⟩ => show win1_5.index t (0 : Fin 2) * 5000 + 1 * p.val = t.val * 5000 + p.val; omega
  | ⟨1, _⟩ => show win1_5.index t (1 : Fin 2) * 128 + 1 * q.val = q.val; omega

/-- Window 0 at point `t` reads rows `5000 t …` of the neighbour means. -/
theorem means_entry (c : Dev nD) (t : Fin cfg1.N) (p : Fin 5000) (k : Fin 128) :
    iblk1 V c 0 t (ix2 p k) = V c main_v40 (ix2 (arrayRow t p) k) := by
  obtain ⟨e0, e1, -⟩ := block_at t
  show V c main_v40 (((cfg1.win 0).blk t).view.emb (ix2 p k)) = V c main_v40 (ix2 (arrayRow t p) k)
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- Window 1 at point `t` reads rows `5000 t …` of the hidden features. -/
theorem feats_entry (c : Dev nD) (t : Fin cfg1.N) (p : Fin 5000) (k : Fin 128) :
    iblk1 V c 1 t (ix2 p k) = V c main_v28 (ix2 (arrayRow t p) k) := by
  obtain ⟨-, -, e0, e1, -⟩ := block_at t
  show V c main_v28 (((cfg1.win 1).blk t).view.emb (ix2 p k)) = V c main_v28 (ix2 (arrayRow t p) k)
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

/-- Window 2 reads the whole left weight matrix, whatever the point. -/
theorem wl_entry (c : Dev nD) (t : Fin cfg1.N) (k : Fin 128) (q : Fin 128) :
    iblk1 V c 2 t (ix2 k q) = V c main_v42 (ix2 k q) := by
  obtain ⟨-, -, -, -, e0, e1, -⟩ := block_at t
  show V c main_v42 (((cfg1.win 2).blk t).view.emb (ix2 k q)) = V c main_v42 (ix2 k q)
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- Window 3 reads the whole right weight matrix, whatever the point. -/
theorem wr_entry (c : Dev nD) (t : Fin cfg1.N) (k : Fin 128) (q : Fin 128) :
    iblk1 V c 3 t (ix2 k q) = V c main_v43 (ix2 k q) := by
  obtain ⟨-, -, -, -, -, -, e0, e1, -⟩ := block_at t
  show V c main_v43 (((cfg1.win 3).blk t).view.emb (ix2 k q)) = V c main_v43 (ix2 k q)
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- Window 4 reads the whole bias row, whatever the point. -/
theorem bias_entry (c : Dev nD) (t : Fin cfg1.N) (u : Fin 1) (q : Fin 128) :
    iblk1 V c 4 t (ix2 u q) = V c main_v41 (ix2 u q) := by
  obtain ⟨-, -, -, -, -, -, -, -, e0, e1, -⟩ := block_at t
  show V c main_v41 (((cfg1.win 4).blk t).view.emb (ix2 u q)) = V c main_v41 (ix2 u q)
  refine congrArg _ (funext fun a => Fin.ext ?_)
  match a with
  | ⟨0, _⟩ => show win1_4.index t (0 : Fin 2) * 1 + 1 * u.val = u.val; omega
  | ⟨1, _⟩ => show win1_4.index t (1 : Fin 2) * 128 + 1 * q.val = q.val; omega

/-- Point `t` writes back block `t` of the layer of the whole arrays. -/
theorem written_back (c : Dev nD) (t : Fin cfg1.N) :
    (dat1 (F := Ideal) V c).flushed 5 t
      = ((cfg1.win 5).blk t).view.read (Elt Ideal)
          (Cert.Sage.denseRelu (V c main_v40) (V c main_v28) (V c main_v42) (V c main_v43) (V c main_v41)) := by
  show (cfg1.win 5).cut (grid1.coords t) ((dat1 V c).after 5 t) = _
  rw [after1_5]
  unfold out1_5
  rw [View.canon_unit_zero corner]
  simp only [View.ld_unit_zero (S := S5000x128) corner, View.ld_unit_zero (S := S128x128) corner,
    View.ld_unit_zero (S := S1x128) corner]
  funext j
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (iblk1 V c 3 t) (iblk1 V c 4 t) (ix2 p q)
    = Cert.Sage.denseRelu (V c main_v40) (V c main_v28) (V c main_v42) (V c main_v43) (V c main_v41)
        (((cfg1.win 5).blk t).view.emb (ix2 p q))
  rw [stored_entry, out_entry, layer_entry]
  simp only [means_entry, feats_entry, wl_entry, wr_entry, bias_entry]

/-- Membership in the output's block `t`, coordinate by coordinate. -/
theorem in_block (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v44).slice (win1_5.rect t)).set ↔ _
  rw [View.set_slice_whole, Rect.mem_set_unit]
  exact Iff.rfl

/-- Every row below 100000 falls in the block numbered by its quotient by 5000, and there are twenty of those. -/
theorem every_index_written (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by omega⟩, rfl⟩
  obtain ⟨-, -, -, -, -, -, -, -, -, -, e0, e1⟩ := block_at t
  refine ⟨t, flush1_5 t, ?_⟩
  rw [in_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

end Tiling

end Layer1

/-- After its twenty points the second layer's output array holds the layer of the arrays the region found. -/
theorem region1_value (V : (c : Dev nD) → (b : Ref sig .tc) → Buf (Elt Ideal) ((c : Thread nD τ).loc b)) (c : Dev nD) :
    (dat1 (F := Ideal) V c).arrAt 5 cfg1.N
      = Cert.Sage.denseRelu (V c main_v40) (V c main_v28) (V c main_v42) (V c main_v43) (V c main_v41) :=
  (dat1 (F := Ideal) V c).arrAt_eq_of_cover 5
    (Cert.Sage.denseRelu (V c main_v40) (V c main_v28) (V c main_v42) (V c main_v43) (V c main_v41))
    (fun t _ => Layer1.written_back V c t) Layer1.every_index_written

end Cert.KernelIdeal.RegionValue
end
-- ==== Proof.Region2.lean ====
/-
  The third graph layer, read off its twenty row blocks.

  Each grid point takes 5000 rows of the scaled neighbour sums and of the node features, the two whole weight
  columns and the one bias entry, and leaves 5000 rows of  n * wl + h * wr + b.  Over the extended reals the
  narrowing casts are the identity and a product into a zero accumulator is the plain sum of products, so an
  entry of the block is the layer's entry at the matching row.  The twenty blocks tile the 100000 rows, hence
  the whole output array is the layer applied to the whole arrays.
-/
import proofs.«400740_j64338610095087_3_alg».proof.Proof.Gen.KernelIdeal.Frame
import proofs.«400740_j64338610095087_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
namespace Cert.KernelIdeal.RegionValue
open Idealize.ShloMosaic Idealize.ShloMosaic.TcCoe Idealize.SL.Sem Cert.KernelIdeal Cert.KernelIdeal.Gen
open Idealize.ShloMosaic.ValueIdx
open scoped BigOperators

namespace Layer2

/-- The left operand is read at the output's row. -/
theorem lhs_row (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
/-- The left operand's column is the summation index. -/
theorem lhs_col (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
/-- The right operand's row is the summation index. -/
theorem rhs_row (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
/-- The right operand is read at the output's column. -/
theorem rhs_col (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- A product into a zero accumulator, read at row p and column q, is the sum over k of l[p,k] * r[k,q]. -/
theorem product_apply {φ₁ φ₂ : FTy} (l : FVec Ideal S5000x128 φ₁) (r : FVec Ideal S128x1 φ₂) (p : Fin 5000) (q : Fin 1) :
    FloatOps.matmul dot_S5000x128_S128x1_S5000x1_1_0_0_1_n_n none l r (constant S5000x1 .f32 0x00000000#32) (ix2 p q)
      = ∑ k : Fin 128, l (ix2 p k) * r (ix2 k q) := by
  rw [Ideal.matmul_constant_zero_apply, ← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx (ix2 p q) ((ValueIdx.contrEquiv1 dot_S5000x128_S128x1_S5000x1_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x1_S5000x1_1_0_0_1_n_n.rhsIdx (ix2 p q) ((ValueIdx.contrEquiv1 dot_S5000x128_S128x1_S5000x1_1_0_0_1_n_n 128 rfl rfl).symm k) = ix2 k q := funext fun a => Fin.ext (by
    match a with
    | ⟨0, _⟩ => exact (rhs_row _ _).trans hk
    | ⟨1, _⟩ => exact rhs_col _ _)
  rw [el, er]

/-- The 1 x 1 bias spread over 5000 rows reads, at every row, the one entry. -/
theorem bias_row_apply (b : Vec Ideal S1x1 .f32) (h : S1x1.Broadcasts S5000x1) (p : Fin 5000) (q : Fin 1) :
    broadcastTo S5000x1 b h (ix2 p q) = b (ix2 0 q) :=
  broadcastTo_apply b h (ix2 p q) (ix2 0 q) (fun a => by
    match a with
    | ⟨0, _⟩ => rfl
    | ⟨1, h1⟩ => exact (Fin.val_eq_zero q).trans (if_pos (show S1x1.size ⟨1, h1⟩ = 1 from rfl)).symm)

/-- The body at one entry: row p, column q of what the body computes from its five loaded blocks is
    the sum over k of x0[p,k] * x2[k,q], plus the sum over k of x1[p,k] * x3[k,q], plus the bias x4[0,q].
    The narrowing casts are the identity on the extended reals, both accumulators start at zero, and the
    same-shape casts change nothing. -/
theorem payload_apply (x0 x1 : Vec Ideal S5000x128 .f32) (x2 x3 : Vec Ideal S128x1 .f32) (x4 : Vec Ideal S1x1 .f32)
    (p : Fin 5000) (q : Fin 1) :
    k2_pay1 x0 x1 x2 x3 x4 (ix2 p q)
      = (∑ k : Fin 128, (x0 (ix2 p k) : EReal) * x2 (ix2 k q)) + (∑ k : Fin 128, (x1 (ix2 p k) : EReal) * x3 (ix2 k q))
        + x4 (ix2 0 q) := by
  unfold k2_pay1
  simp only [shapeCast_self]
  rw [addf_apply, addf_apply]
  simp only [matmul]
  rw [product_apply, product_apply, bias_row_apply]
  simp only [truncf_apply]

/-- Both offsets of a whole-block rectangle are zero. -/
theorem zero_offsets : (![0, 0] : Fin 2 → Nat) = fun _ => 0 := funext fun a => by fin_cases a <;> rfl

/-- The block indices of the six windows at grid point t: the two feature windows and the output window take
    block t of the rows and block 0 of the columns; the two weight columns and the bias are always block (0, 0). -/
theorem block_indices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section
variable (V : (c : Dev nD) → (b : Ref sig .tc) → Buf (Elt Ideal) ((c : Thread nD τ).loc b))

/-- Block t of the neighbour sums: its entry (p, k) is entry (5000 t + p, k) of the array. -/
theorem read_neighbour_rows (c : Dev nD) (t : Fin cfg2.N) (p : Fin 5000) (k : Fin 128) (r : Fin 100000)
    (hr : r.val = t.val * 5000 + p.val) :
    (iblk2 V c 0 t : Vec Ideal S5000x128 .f32) (ix2 p k) = V c main_v56 (ix2 r k) := by
  obtain ⟨e0, e1, -⟩ := block_indices t
  unfold iblk2
  rw [View.read_apply]
  show V c main_v56 (((cfg2.win 0).blk t).view.emb (ix2 p k)) = V c main_v56 (ix2 r k)
  have hi : ((cfg2.win 0).blk t).view.emb (ix2 p k) = ix2 r k := funext fun a => Fin.ext (by
    match a with
    | ⟨0, _⟩ => show win2_0.index t (0 : Fin 2) * 5000 + 1 * p.val = r.val; omega
    | ⟨1, _⟩ => show win2_0.index t (1 : Fin 2) * 128 + 1 * k.val = k.val; omega)
  rw [hi]

/-- Block t of the node features: its entry (p, k) is entry (5000 t + p, k) of the array. -/
theorem read_feature_rows (c : Dev nD) (t : Fin cfg2.N) (p : Fin 5000) (k : Fin 128) (r : Fin 100000)
    (hr : r.val = t.val * 5000 + p.val) :
    (iblk2 V c 1 t : Vec Ideal S5000x128 .f32) (ix2 p k) = V c main_v44 (ix2 r k) := by
  obtain ⟨-, -, e0, e1, -⟩ := block_indices t
  unfold iblk2
  rw [View.read_apply]
  show V c main_v44 (((cfg2.win 1).blk t).view.emb (ix2 p k)) = V c main_v44 (ix2 r k)
  have hi : ((cfg2.win 1).blk t).view.emb (ix2 p k) = ix2 r k := funext fun a => Fin.ext (by
    match a with
    | ⟨0, _⟩ => show win2_1.index t (0 : Fin 2) * 5000 + 1 * p.val = r.val; omega
    | ⟨1, _⟩ => show win2_1.index t (1 : Fin 2) * 128 + 1 * k.val = k.val; omega)
  rw [hi]

/-- The first weight column is read whole at every grid point. -/
theorem read_left_weights (c : Dev nD) (t : Fin cfg2.N) (k : Fin 128) (q : Fin 1) :
    (iblk2 V c 2 t : Vec Ideal S128x1 .f32) (ix2 k q) = V c main_v58 (ix2 k q) := by
  obtain ⟨-, -, -, -, e0, e1, -⟩ := block_indices t
  unfold iblk2
  rw [View.read_apply]
  show V c main_v58 (((cfg2.win 2).blk t).view.emb (ix2 k q)) = V c main_v58 (ix2 k q)
  have hi : ((cfg2.win 2).blk t).view.emb (ix2 k q) = ix2 k q := funext fun a => Fin.ext (by
    match a with
    | ⟨0, _⟩ => show win2_2.index t (0 : Fin 2) * 128 + 1 * k.val = k.val; omega
    | ⟨1, _⟩ => show win2_2.index t (1 : Fin 2) * 1 + 1 * q.val = q.val; omega)
  rw [hi]

/-- The second weight column is read whole at every grid point. -/
theorem read_right_weights (c : Dev nD) (t : Fin cfg2.N) (k : Fin 128) (q : Fin 1) :
    (iblk2 V c 3 t : Vec Ideal S128x1 .f32) (ix2 k q) = V c main_v59 (ix2 k q) := by
  obtain ⟨-, -, -, -, -, -, e0, e1, -⟩ := block_indices t
  unfold iblk2
  rw [View.read_apply]
  show V c main_v59 (((cfg2.win 3).blk t).view.emb (ix2 k q)) = V c main_v59 (ix2 k q)
  have hi : ((cfg2.win 3).blk t).view.emb (ix2 k q) = ix2 k q := funext fun a => Fin.ext (by
    match a with
    | ⟨0, _⟩ => show win2_3.index t (0 : Fin 2) * 128 + 1 * k.val = k.val; omega
    | ⟨1, _⟩ => show win2_3.index t (1 : Fin 2) * 1 + 1 * q.val = q.val; omega)
  rw [hi]

/-- The bias is read whole at every grid point. -/
theorem read_bias (c : Dev nD) (t : Fin cfg2.N) (z q : Fin 1) :
    (iblk2 V c 4 t : Vec Ideal S1x1 .f32) (ix2 z q) = V c main_v57 (ix2 z q) := by
  obtain ⟨-, -, -, -, -, -, -, -, e0, e1, -⟩ := block_indices t
  unfold iblk2
  rw [View.read_apply]
  show V c main_v57 (((cfg2.win 4).blk t).view.emb (ix2 z q)) = V c main_v57 (ix2 z q)
  have hi : ((cfg2.win 4).blk t).view.emb (ix2 z q) = ix2 z q := funext fun a => Fin.ext (by
    match a with
    | ⟨0, _⟩ => show win2_4.index t (0 : Fin 2) * 1 + 1 * z.val = z.val; omega
    | ⟨1, _⟩ => show win2_4.index t (1 : Fin 2) * 1 + 1 * q.val = q.val; omega)
  rw [hi]

/-- The layer at row r and column o, written out. -/
theorem dense_entry {R K O : Nat} (n h : Cert.Sage.Mat R K) (wl wr : Cert.Sage.Mat K O) (b : Cert.Sage.Mat 1 O)
    (r : Fin R) (o : Fin O) :
    Cert.Sage.dense n h wl wr b (ix2 r o)
      = (∑ k : Fin K, n (ix2 r k) * wl (ix2 k o)) + (∑ k : Fin K, h (ix2 r k) * wr (ix2 k o)) + b (ix2 0 o) := rfl

/-- The write-back of grid point t holds rows 5000 t to 5000 t + 4999 of n * wl + h * wr + b, because each
    input block is the matching rows (or the whole) of its array. -/
theorem flushed_block (c : Dev nD) (t : Fin cfg2.N) :
    (dat2 (F := Ideal) V c).flushed 5 t = ((cfg2.win 5).blk t).view.read (Elt Ideal)
      (Cert.Sage.dense (V c main_v56) (V c main_v44) (V c main_v58) (V c main_v59) (V c main_v57)) := by
  show (cfg2.win 5).cut (grid2.coords t) ((dat2 V c).after 5 t) = _
  rw [after2_5]
  unfold out2_5
  rw [View.canon_unit_zero zero_offsets]
  simp only [View.ld_unit_zero (S := S5000x128) zero_offsets, View.ld_unit_zero (S := S128x1) zero_offsets,
    View.ld_unit_zero (S := S1x1) zero_offsets]
  obtain ⟨-, -, -, -, -, -, -, -, -, -, e0, e1⟩ := block_indices t
  have hN : cfg2.N = 20 := N_2
  have ht : t.val < cfg2.N := t.isLt
  funext j
  obtain ⟨p, q, rfl⟩ : ∃ (p : Fin 5000) (q : Fin 1), j = ix2 p q := ⟨j 0, j 1, eq_ix2 j⟩
  obtain ⟨r, hr⟩ : ∃ r : Fin 100000, r.val = t.val * 5000 + p.val := ⟨⟨t.val * 5000 + p.val, by omega⟩, rfl⟩
  have hi : ((cfg2.win 5).blk t).view.emb (ix2 p q) = ix2 r q := funext fun a => Fin.ext (by
    match a with
    | ⟨0, _⟩ => show win2_5.index t (0 : Fin 2) * 5000 + 1 * p.val = r.val; omega
    | ⟨1, _⟩ => show win2_5.index t (1 : Fin 2) * 1 + 1 * q.val = q.val; omega)
  rw [View.read_apply, hi]
  show k2_pay1 (iblk2 V c 0 t) (iblk2 V c 1 t) (iblk2 V c 2 t) (iblk2 V c 3 t) (iblk2 V c 4 t) (ix2 p q)
    = Cert.Sage.dense (V c main_v56) (V c main_v44) (V c main_v58) (V c main_v59) (V c main_v57) (ix2 r q)
  refine ((payload_apply _ _ _ _ _ p q).trans ?_).trans (dense_entry _ _ _ _ _ r q).symm
  have h0 := fun k : Fin 128 => read_neighbour_rows V c t p k r hr
  have h1 := fun k : Fin 128 => read_feature_rows V c t p k r hr
  have h2 := fun k : Fin 128 => read_left_weights V c t k q
  have h3 := fun k : Fin 128 => read_right_weights V c t k q
  have h4 := read_bias V c t 0 q
  simp only [h0, h1, h2, h3, h4]

/-- A row index lies in grid point t's output block exactly when it is one of that block's 5000 rows. -/
theorem mem_output_block (t : Fin cfg2.N) (i : S100000x1.Idx) :
    i ∈ ((cfg2.win 5).blk t).view.set ↔ ∀ a : Fin 2, win2_5.index t a * S5000x1.size a ≤ (i a).val
      ∧ (i a).val < win2_5.index t a * S5000x1.size a + S5000x1.size a := by
  show i ∈ ((View.whole main_v60).slice (win2_5.rect t)).set ↔ _
  rw [View.set_slice_whole, Rect.mem_set_unit]
  exact Iff.rfl

/-- The twenty output blocks tile the 100000 rows: row i lies in the block of grid point i / 5000, and every
    point writes its block back. -/
theorem rows_covered (i : S100000x1.Idx) :
    ∃ t : Fin cfg2.N, (cfg2.win 5).flush t = true ∧ i ∈ ((cfg2.win 5).blk t).view.set := by
  have hi0 : (i 0).val < 100000 := (i 0).isLt
  have hi1 : (i 1).val < 1 := (i 1).isLt
  have hN : cfg2.N = 20 := N_2
  obtain ⟨t, ht⟩ : ∃ t : Fin cfg2.N, t.val = (i 0).val / 5000 := ⟨⟨(i 0).val / 5000, by omega⟩, rfl⟩
  obtain ⟨-, -, -, -, -, -, -, -, -, -, e0, e1⟩ := block_indices t
  refine ⟨t, flush2_5 t, ?_⟩
  rw [mem_output_block]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 1 ≤ (i 1).val ∧ (i 1).val < win2_5.index t (1 : Fin 2) * 1 + 1
    omega

end

end Layer2

/-- The output array of the third layer, whatever the region finds on entry: the twenty write-backs leave
    n * wl + h * wr + b, row by row, with n the neighbour sums already scaled, h the node features, wl and wr
    the two weight columns and b the bias. -/
theorem region2_value (V : (c : Dev nD) → (b : Ref sig .tc) → Buf (Elt Ideal) ((c : Thread nD τ).loc b)) (c : Dev nD) :
    (dat2 (F := Ideal) V c).arrAt 5 cfg2.N
      = Cert.Sage.dense (V c main_v56) (V c main_v44) (V c main_v58) (V c main_v59) (V c main_v57) :=
  (dat2 V c).arrAt_eq_of_cover 5
    (Cert.Sage.dense (V c main_v56) (V c main_v44) (V c main_v58) (V c main_v59) (V c main_v57))
    (fun t _ => Layer2.flushed_block V c t) Layer2.rows_covered

end Cert.KernelIdeal.RegionValue
end
-- ==== Proof.RefSide.lean ====
/-
  What the reference program computes, said through the shared specification, over the extended reals.

  The program is three graph layers in a row. In each one it sums, for every node, the feature rows of the nodes
  that have an edge into it, divides that sum by the larger of the node's in-degree and one, multiplies the result
  and the node's own features by two weight matrices, adds a bias, and (after the first two layers) takes the
  maximum with zero. The neighbour sums and the in-degree are left as the functions of the edge list the program
  writes them as; nothing here looks inside them. What is shown is that, entry by entry,

    * the quotient by `max d 1` is the product with its inverse, because `max d 1` is at least one and so not zero;
    * each matrix product is the plain sum over the shared axis, the weights read through their transposes;
    * the bias, which the program adds between the two products, may as well be added last, since addition of
      extended reals is commutative and associative;
    * the second and third layers build their neighbour sums and in-degree from the same edge list by the same
      steps as the first, so they are the first layer's functions applied to the previous layer's result.

  Put together, the first result is the specification's three layers. The second result is one over one plus the
  exponential of minus the first; its term contains the first result's term, and the two sides are one and the same.
-/
import proofs.«400740_j64338610095087_3_alg».proof.Proof.Gen.ReferenceIdeal.Run
import proofs.«400740_j64338610095087_3_alg».proof.Proof.Gen.ReferenceIdeal.Read
import proofs.«400740_j64338610095087_3_alg».proof.Proof.Spec
import Idealize.ShloMosaic.Lib.IdealHost

noncomputable section

open scoped BigOperators

namespace Cert.ReferenceIdeal.RefValue

open Cert.ReferenceIdeal Cert.ReferenceIdeal.Gen Cert.ReferenceIdeal.Value Cert.ReferenceIdeal.Read Idealize.ShloMosaic Idealize.ShloMosaic.TcCoe Idealize.SL.Sem Idealize.ShloMosaic.ValueIdx

/-- The arrays the stages take: node features, the edge list, square and single-column weights, biases. -/
abbrev Feat : Type := (⟨S100000x128, .f32⟩ : BufTy).Contents (Elt Ideal)
abbrev Edges : Type := (⟨S2x1600000, .i32⟩ : BufTy).Contents (Elt Ideal)
abbrev Wsq : Type := (⟨S128x128, .f32⟩ : BufTy).Contents (Elt Ideal)
abbrev Bvec : Type := (⟨S128, .f32⟩ : BufTy).Contents (Elt Ideal)
abbrev Wrow : Type := (⟨S1x128, .f32⟩ : BufTy).Contents (Elt Ideal)
abbrev Bone : Type := (⟨S1, .f32⟩ : BufTy).Contents (Elt Ideal)

/-- A quotient by `max d 1`, the one given by its 32-bit word, is the product with the inverse of `max d 1`:
    the word is the number one, and `max d 1` is not zero. -/
theorem div_max_one (a d : EReal) :
    Ideal.div a (max d (Ideal.ofBits .f32 0x3F800000#32)) = a * (max d 1)⁻¹ := by
  rw [Ideal.ofBits_one_f32]
  exact Cert.Sage.div_eq_mul_inv a (max d 1) (Cert.Sage.max_one_ne_zero d)

/-! ### First layer -/

/-- The first normalisation: each row of the neighbour sums divided by the larger of the in-degree and one. -/
theorem mean1 (x0 : Feat) (x1 : Edges) :
    val_main_v22 (F := Ideal) x0 x1
      = Cert.Sage.meanScale (val_main_v17 (F := Ideal) x0 x1) (val_main_v7 (F := Ideal) x1) := by
  funext i
  have e : idx_main_v20 (idx_main_v21 i) = ix1 (i 0) := funext fun a => match a with | ⟨0, _⟩ => rfl
  rw [val_main_v22_apply, val_main_v21_apply, val_main_v20_apply, val_main_v19_apply, val_main_v18_apply,
    val_main_cst_3_apply, e]
  simp only [Ideal.hostDivf_def, Ideal.maximumf_def, Ideal.ofBits_def]
  exact div_max_one _ _

/-- The first layer after its normalisation: the two products, the bias, and the maximum with zero. The program
    adds the bias before the second product; the specification adds it last. -/
theorem dense1 (x0 : Feat) (x1 : Edges) (x2 : Wsq) (x3 : Bvec) (x4 : Wsq) :
    val_main_v31 (F := Ideal) x0 x1 x2 x3 x4
      = Cert.Sage.denseRelu (val_main_v22 (F := Ideal) x0 x1) x0 (val_main_v23 (F := Ideal) x2)
          (val_main_v28 (F := Ideal) x4) (val_main_v25 (F := Ideal) x3) := by
  funext i
  have el : ∀ k, lidx_main_v24 i k = ix2 (i 0) k := fun k => funext fun a => match a with
    | ⟨0, _⟩ => rfl
    | ⟨1, _⟩ => rfl
  have er : ∀ k, ridx_main_v24 i k = ix2 k (i 1) := fun k => funext fun a => match a with
    | ⟨0, _⟩ => rfl
    | ⟨1, _⟩ => rfl
  have el' : ∀ k, lidx_main_v29 i k = ix2 (i 0) k := fun k => funext fun a => match a with
    | ⟨0, _⟩ => rfl
    | ⟨1, _⟩ => rfl
  have er' : ∀ k, ridx_main_v29 i k = ix2 k (i 1) := fun k => funext fun a => match a with
    | ⟨0, _⟩ => rfl
    | ⟨1, _⟩ => rfl
  have eb : idx_main_v26 i = ix2 0 (i 1) := funext fun a => match a with
    | ⟨0, _⟩ => rfl
    | ⟨1, _⟩ => rfl
  rw [val_main_v31_apply, val_main_v30_apply, val_main_v27_apply, val_main_v24_apply, val_main_v29_apply,
    val_main_v26_apply, val_main_call0_v0_apply, val_main_call0_cst_apply, eb]
  simp only [Ideal.maximumf_def, Ideal.addf_def, Ideal.ofBits_def, Ideal.ofBits_zero_f32, el, er, el', er']
  exact congrArg (fun t => max t 0) (Cert.Sage.add_right_comm' _ _ _)

/-! ### The neighbour sums and the in-degree are the same functions in every layer

The program spells the in-degree and the neighbour sums afresh for each layer, from the same edge list and the
same constants; only the names of the intermediate arrays differ. -/

/-- The second layer's in-degree is the first layer's. -/
theorem deg2 (x1 : Edges) : val_main_v35 (F := Ideal) x1 = val_main_v7 (F := Ideal) x1 := by
  unfold val_main_v35 val_main_v33 val_main_v34 val_main_v32 val_main_cst_5 val_main_cst_4
    val_main_v7 val_main_v5 val_main_v6 val_main_v4 val_main_cst_0 val_main_cst
  with_reducible rfl

/-- The third layer's in-degree is the first layer's. -/
theorem deg3 (x1 : Edges) : val_main_v63 (F := Ideal) x1 = val_main_v7 (F := Ideal) x1 := by
  unfold val_main_v63 val_main_v61 val_main_v62 val_main_v60 val_main_cst_11 val_main_cst_10
    val_main_v7 val_main_v5 val_main_v6 val_main_v4 val_main_cst_0 val_main_cst
  with_reducible rfl

/-- The second layer's neighbour sums are the first layer's aggregation applied to the first layer's result. -/
theorem agg2 (x0 : Feat) (x1 : Edges) (x2 : Wsq) (x3 : Bvec) (x4 : Wsq) :
    val_main_v45 (F := Ideal) x0 x1 x2 x3 x4
      = val_main_v17 (F := Ideal) (val_main_v31 (F := Ideal) x0 x1 x2 x3 x4) x1 := by
  unfold val_main_v45 val_main_v43 val_main_cst_8 val_main_v44 val_main_v42 val_main_v41 val_main_v40 val_main_v37
    val_main_v36 val_main_c_6 val_main_v39 val_main_v38 val_main_c_7
    val_main_v17 val_main_v15 val_main_cst_2 val_main_v16 val_main_v14 val_main_v13 val_main_v12 val_main_v9
    val_main_v8 val_main_c val_main_v11 val_main_v10 val_main_c_1
  with_reducible rfl

/-- The third layer's neighbour sums are the same aggregation applied to the second layer's result. -/
theorem agg3 (x0 : Feat) (x1 : Edges) (x2 : Wsq) (x3 : Bvec) (x4 x5 : Wsq) (x6 : Bvec) (x7 : Wsq) :
    val_main_v73 (F := Ideal) x0 x1 x2 x3 x4 x5 x6 x7
      = val_main_v17 (F := Ideal) (val_main_v59 (F := Ideal) x0 x1 x2 x3 x4 x5 x6 x7) x1 := by
  unfold val_main_v73 val_main_v71 val_main_cst_14 val_main_v72 val_main_v70 val_main_v69 val_main_v68 val_main_v65
    val_main_v64 val_main_c_12 val_main_v67 val_main_v66 val_main_c_13
    val_main_v17 val_main_v15 val_main_cst_2 val_main_v16 val_main_v14 val_main_v13 val_main_v12 val_main_v9
    val_main_v8 val_main_c val_main_v11 val_main_v10 val_main_c_1
  with_reducible rfl

/-! ### Second layer -/

/-- The second normalisation. -/
theorem mean2 (x0 : Feat) (x1 : Edges) (x2 : Wsq) (x3 : Bvec) (x4 : Wsq) :
    val_main_v50 (F := Ideal) x0 x1 x2 x3 x4
      = Cert.Sage.meanScale (val_main_v45 (F := Ideal) x0 x1 x2 x3 x4) (val_main_v35 (F := Ideal) x1) := by
  funext i
  have e : idx_main_v48 (idx_main_v49 i) = ix1 (i 0) := funext fun a => match a with | ⟨0, _⟩ => rfl
  rw [val_main_v50_apply, val_main_v49_apply, val_main_v48_apply, val_main_v47_apply, val_main_v46_apply,
    val_main_cst_9_apply, e]
  simp only [Ideal.hostDivf_def, Ideal.maximumf_def, Ideal.ofBits_def]
  exact div_max_one _ _

/-- The second layer after its normalisation, on the first layer's result. -/
theorem dense2 (x0 : Feat) (x1 : Edges) (x2 : Wsq) (x3 : Bvec) (x4 x5 : Wsq) (x6 : Bvec) (x7 : Wsq) :
    val_main_v59 (F := Ideal) x0 x1 x2 x3 x4 x5 x6 x7
      = Cert.Sage.denseRelu (val_main_v50 (F := Ideal) x0 x1 x2 x3 x4) (val_main_v31 (F := Ideal) x0 x1 x2 x3 x4)
          (val_main_v51 (F := Ideal) x5) (val_main_v56 (F := Ideal) x7) (val_main_v53 (F := Ideal) x6) := by
  funext i
  have el : ∀ k, lidx_main_v52 i k = ix2 (i 0) k := fun k => funext fun a => match a with
    | ⟨0, _⟩ => rfl
    | ⟨1, _⟩ => rfl
  have er : ∀ k, ridx_main_v52 i k = ix2 k (i 1) := fun k => funext fun a => match a with
    | ⟨0, _⟩ => rfl
    | ⟨1, _⟩ => rfl
  have el' : ∀ k, lidx_main_v57 i k = ix2 (i 0) k := fun k => funext fun a => match a with
    | ⟨0, _⟩ => rfl
    | ⟨1, _⟩ => rfl
  have er' : ∀ k, ridx_main_v57 i k = ix2 k (i 1) := fun k => funext fun a => match a with
    | ⟨0, _⟩ => rfl
    | ⟨1, _⟩ => rfl
  have eb : idx_main_v54 i = ix2 0 (i 1) := funext fun a => match a with
    | ⟨0, _⟩ => rfl
    | ⟨1, _⟩ => rfl
  rw [val_main_v59_apply, val_main_v58_apply, val_main_v55_apply, val_main_v52_apply, val_main_v57_apply,
    val_main_v54_apply, val_main_call1_v0_apply, val_main_call1_cst_apply, eb]
  simp only [Ideal.maximumf_def, Ideal.addf_def, Ideal.ofBits_def, Ideal.ofBits_zero_f32, el, er, el', er']
  exact congrArg (fun t => max t 0) (Cert.Sage.add_right_comm' _ _ _)

/-! ### Third layer -/

/-- The third normalisation. -/
theorem mean3 (x0 : Feat) (x1 : Edges) (x2 : Wsq) (x3 : Bvec) (x4 x5 : Wsq) (x6 : Bvec) (x7 : Wsq) :
    val_main_v78 (F := Ideal) x0 x1 x2 x3 x4 x5 x6 x7
      = Cert.Sage.meanScale (val_main_v73 (F := Ideal) x0 x1 x2 x3 x4 x5 x6 x7) (val_main_v63 (F := Ideal) x1) := by
  funext i
  have e : idx_main_v76 (idx_main_v77 i) = ix1 (i 0) := funext fun a => match a with | ⟨0, _⟩ => rfl
  rw [val_main_v78_apply, val_main_v77_apply, val_main_v76_apply, val_main_v75_apply, val_main_v74_apply,
    val_main_cst_15_apply, e]
  simp only [Ideal.hostDivf_def, Ideal.maximumf_def, Ideal.ofBits_def]
  exact div_max_one _ _

/-- The third layer after its normalisation, on the second layer's result: a single output column, and no maximum
    with zero. The one bias entry is read at column `i 1`, which can only be column zero. -/
theorem dense3 (x0 : Feat) (x1 : Edges) (x2 : Wsq) (x3 : Bvec) (x4 x5 : Wsq) (x6 : Bvec) (x7 : Wsq)
    (x8 : Wrow) (x9 : Bone) (x10 : Wrow) :
    val_main_v86 (F := Ideal) x0 x1 x2 x3 x4 x5 x6 x7 x8 x9 x10
      = Cert.Sage.dense (val_main_v78 (F := Ideal) x0 x1 x2 x3 x4 x5 x6 x7)
          (val_main_v59 (F := Ideal) x0 x1 x2 x3 x4 x5 x6 x7)
          (val_main_v79 (F := Ideal) x8) (val_main_v84 (F := Ideal) x10) (val_main_v81 (F := Ideal) x9) := by
  funext i
  have el : ∀ k, lidx_main_v80 i k = ix2 (i 0) k := fun k => funext fun a => match a with
    | ⟨0, _⟩ => rfl
    | ⟨1, _⟩ => rfl
  have er : ∀ k, ridx_main_v80 i k = ix2 k (i 1) := fun k => funext fun a => match a with
    | ⟨0, _⟩ => rfl
    | ⟨1, _⟩ => rfl
  have el' : ∀ k, lidx_main_v85 i k = ix2 (i 0) k := fun k => funext fun a => match a with
    | ⟨0, _⟩ => rfl
    | ⟨1, _⟩ => rfl
  have er' : ∀ k, ridx_main_v85 i k = ix2 k (i 1) := fun k => funext fun a => match a with
    | ⟨0, _⟩ => rfl
    | ⟨1, _⟩ => rfl
  have eb : idx_main_v82 i = ix2 0 (i 1) := funext fun a => match a with
    | ⟨0, _⟩ => rfl
    | ⟨1, _⟩ => Fin.ext (by
        have h : (i 1).val < 1 := (i 1).isLt
        show 0 = (i 1).val
        omega)
  rw [val_main_v86_apply, val_main_v83_apply, val_main_v80_apply, val_main_v85_apply, val_main_v82_apply, eb]
  simp only [Ideal.addf_def, el, er, el', er']
  exact Cert.Sage.add_right_comm' _ _ _

/-! ### The three layers together -/

/-- The program's first result, as a function of its eleven arguments, is the specification's three layers over the
    first layer's aggregation and in-degree. -/
theorem stages_eq_net (x0 : Feat) (x1 : Edges) (x2 : Wsq) (x3 : Bvec) (x4 x5 : Wsq) (x6 : Bvec) (x7 : Wsq)
    (x8 : Wrow) (x9 : Bone) (x10 : Wrow) :
    val_main_v86 (F := Ideal) x0 x1 x2 x3 x4 x5 x6 x7 x8 x9 x10
      = Cert.Sage.net (fun h => val_main_v17 (F := Ideal) h x1) (val_main_v7 (F := Ideal) x1) x0
          (val_main_v23 (F := Ideal) x2) (val_main_v28 (F := Ideal) x4) (val_main_v25 (F := Ideal) x3)
          (val_main_v51 (F := Ideal) x5) (val_main_v56 (F := Ideal) x7) (val_main_v53 (F := Ideal) x6)
          (val_main_v79 (F := Ideal) x8) (val_main_v84 (F := Ideal) x10) (val_main_v81 (F := Ideal) x9) := by
  rw [dense3, mean3, agg3, deg3, dense2, mean2, agg2, deg2, dense1, mean1]
  unfold Cert.Sage.net
  with_reducible rfl

/-! ### The two results of the run -/

/-- The first result of the run is the three layers of the specification. -/
theorem ref_out0 (m : (ℓ : Loc nD τ sig) → Buf (Elt Ideal) ℓ) (c : Dev nD) :
    res_out0 (F := Ideal) m c
      = Cert.Sage.net (fun h => val_main_v17 (F := Ideal) h (m ((c.tc : Thread nD τ).loc main_arg1))) (val_main_v7 (F := Ideal) (m ((c.tc : Thread nD τ).loc main_arg1)))
          (m ((c.tc : Thread nD τ).loc main_arg0))
          (val_main_v23 (F := Ideal) (m ((c.tc : Thread nD τ).loc main_arg2))) (val_main_v28 (F := Ideal) (m ((c.tc : Thread nD τ).loc main_arg4))) (val_main_v25 (F := Ideal) (m ((c.tc : Thread nD τ).loc main_arg3)))
          (val_main_v51 (F := Ideal) (m ((c.tc : Thread nD τ).loc main_arg5))) (val_main_v56 (F := Ideal) (m ((c.tc : Thread nD τ).loc main_arg7))) (val_main_v53 (F := Ideal) (m ((c.tc : Thread nD τ).loc main_arg6)))
          (val_main_v79 (F := Ideal) (m ((c.tc : Thread nD τ).loc main_arg8))) (val_main_v84 (F := Ideal) (m ((c.tc : Thread nD τ).loc main_arg10))) (val_main_v81 (F := Ideal) (m ((c.tc : Thread nD τ).loc main_arg9))) :=
  (val_main_v86_eq (F := Ideal) m c).trans (stages_eq_net _ _ _ _ _ _ _ _ _ _ _)

/-- The second result of the run is `1 / (1 + exp (-·))` of the first, entry by entry: its term holds the first
    result's term as a part, and the two sides are the same term. -/
theorem ref_out1 (m : (ℓ : Loc nD τ sig) → Buf (Elt Ideal) ℓ) (c : Dev nD) :
    res_out1 (F := Ideal) m c
      = Host.divf (broadcastInDim S100000x1 ![] bcast_S_S100000x1 (constant (F := Ideal) S_ .f32 0x3F800000#32))
          (addf (broadcastInDim S100000x1 ![] bcast_S_S100000x1 (constant (F := Ideal) S_ .f32 0x3F800000#32))
            (Host.exp (Host.negf (res_out0 (F := Ideal) m c)))) := by
  unfold res_out1 res_out0 res_main_v92 res_main_v86
  rfl

end Cert.ReferenceIdeal.RefValue

end
-- ==== Proof.Bridge.lean ====
/-
  The two programs write the same host arithmetic around their layers, each in its own vocabulary of shapes and
  dimension records: the neighbour sums (a scatter-add of gathered rows), the in-degree vector (a scatter-add of
  ones), the transposes of the weight matrices and the logistic function are literally the same operations, so the
  reference's stage functions and the kernel program's named terms are equal by definition. Only the biases differ
  in spelling: the reference lays a bias vector out as a one-row matrix by a broadcast along a new leading axis, the
  kernel program by a reshape; both put entry `j` of the vector at `(0, j)`.
-/
import proofs.«400740_j64338610095087_3_alg».proof.Proof.KHost
import proofs.«400740_j64338610095087_3_alg».proof.Proof.RefSide
import Idealize.ShloMosaic.Lib.Pipeline.Value
import Idealize.ShloMosaic.Lib.ValueIdx

noncomputable section

namespace Cert.Bridge

open Idealize.ShloMosaic Idealize.ShloMosaic.ValueIdx

/-- The reference's neighbour sums are the kernel program's. -/
theorem neighbourSum_same (h : FVec Ideal Cert.KernelIdeal.S100000x128 .f32) (e : IVec Cert.KernelIdeal.S2x1600000 32) :
    Cert.ReferenceIdeal.Read.val_main_v17 (F := Ideal) h e
      = Cert.KernelIdeal.HostValue.neighbourSum (Cert.KernelIdeal.HostValue.srcRow e) (Cert.KernelIdeal.HostValue.dstRow e) h := rfl

/-- The reference's in-degree vector is the kernel program's. -/
theorem degree_same (e : IVec Cert.KernelIdeal.S2x1600000 32) :
    Cert.ReferenceIdeal.Read.val_main_v7 (F := Ideal) e = Cert.KernelIdeal.HostValue.degree (Cert.KernelIdeal.HostValue.dstRow e) := rfl

/-- The transposes of the square weight matrices. -/
theorem wl0_same (w : FVec Ideal Cert.KernelIdeal.S128x128 .f32) :
    Cert.ReferenceIdeal.Read.val_main_v23 (F := Ideal) w = transpose Cert.KernelIdeal.S128x128 [1, 0] w Cert.KernelIdeal.Gen.transposes_S128x128_S128x128_1_0 := rfl
theorem wr0_same (w : FVec Ideal Cert.KernelIdeal.S128x128 .f32) :
    Cert.ReferenceIdeal.Read.val_main_v28 (F := Ideal) w = transpose Cert.KernelIdeal.S128x128 [1, 0] w Cert.KernelIdeal.Gen.transposes_S128x128_S128x128_1_0 := rfl
theorem wl1_same (w : FVec Ideal Cert.KernelIdeal.S128x128 .f32) :
    Cert.ReferenceIdeal.Read.val_main_v51 (F := Ideal) w = transpose Cert.KernelIdeal.S128x128 [1, 0] w Cert.KernelIdeal.Gen.transposes_S128x128_S128x128_1_0 := rfl
theorem wr1_same (w : FVec Ideal Cert.KernelIdeal.S128x128 .f32) :
    Cert.ReferenceIdeal.Read.val_main_v56 (F := Ideal) w = transpose Cert.KernelIdeal.S128x128 [1, 0] w Cert.KernelIdeal.Gen.transposes_S128x128_S128x128_1_0 := rfl

/-- The transposes of the one-row weight matrices. -/
theorem wl2_same (w : FVec Ideal Cert.KernelIdeal.S1x128 .f32) :
    Cert.ReferenceIdeal.Read.val_main_v79 (F := Ideal) w = transpose Cert.KernelIdeal.S128x1 [1, 0] w Cert.KernelIdeal.Gen.transposes_S1x128_S128x1_1_0 := rfl
theorem wr2_same (w : FVec Ideal Cert.KernelIdeal.S1x128 .f32) :
    Cert.ReferenceIdeal.Read.val_main_v84 (F := Ideal) w = transpose Cert.KernelIdeal.S128x1 [1, 0] w Cert.KernelIdeal.Gen.transposes_S1x128_S128x1_1_0 := rfl

/-- A bias vector as a one-row matrix: broadcast along a new leading axis, or reshaped; entry `j` sits at `(0, j)`. -/
theorem biasRow_same (b : FVec Ideal Cert.KernelIdeal.S128 .f32) :
    broadcastInDim Cert.ReferenceIdeal.S1x128 ![1] Cert.ReferenceIdeal.Gen.bcast_S128_S1x128_1 b
      = shapeCast Cert.KernelIdeal.S1x128 b Cert.KernelIdeal.Gen.shapeCasts_S128_S1x128 := by
  funext j
  rw [broadcastInDim_apply _ Cert.ReferenceIdeal.Gen.bcast_S128_S1x128_1 b j (ix1 (⟨(j 1).val, (j 1).isLt⟩ : Fin 128)) (fun a => match a with
      | ⟨0, _⟩ => by show (j 1).val = if (128 : Nat) = 1 then 0 else (j 1).val; rw [if_neg (by decide)]),
    shapeCast_apply b Cert.KernelIdeal.Gen.shapeCasts_S128_S1x128 j (ix1 (⟨(j 1).val, (j 1).isLt⟩ : Fin 128))
      (by rewrite [Shape.rowMajor_val_two, Shape.rowMajor_val_one]; have h0 : (j 0).val < 1 := (j 0).isLt
          show (j 1).val = (j 0).val * 128 + (j 1).val; omega)]

theorem b0_same (b : FVec Ideal Cert.KernelIdeal.S128 .f32) :
    Cert.ReferenceIdeal.Read.val_main_v25 (F := Ideal) b = shapeCast Cert.KernelIdeal.S1x128 b Cert.KernelIdeal.Gen.shapeCasts_S128_S1x128 := biasRow_same b
theorem b1_same (b : FVec Ideal Cert.KernelIdeal.S128 .f32) :
    Cert.ReferenceIdeal.Read.val_main_v53 (F := Ideal) b = shapeCast Cert.KernelIdeal.S1x128 b Cert.KernelIdeal.Gen.shapeCasts_S128_S1x128 := biasRow_same b

/-- The last layer's single bias as a one-by-one matrix, either way. -/
theorem b2_same (b : FVec Ideal Cert.KernelIdeal.S1 .f32) :
    Cert.ReferenceIdeal.Read.val_main_v81 (F := Ideal) b = shapeCast Cert.KernelIdeal.S1x1 b Cert.KernelIdeal.Gen.shapeCasts_S1_S1x1 := by
  show broadcastInDim Cert.ReferenceIdeal.S1x1 ![1] Cert.ReferenceIdeal.Gen.bcast_S1_S1x1_1 b = _
  funext j
  rw [broadcastInDim_apply _ Cert.ReferenceIdeal.Gen.bcast_S1_S1x1_1 b j (ix1 (⟨0, Nat.one_pos⟩ : Fin 1)) (fun a => match a with
      | ⟨0, _⟩ => by show 0 = if (1 : Nat) = 1 then 0 else (j 1).val; rw [if_pos rfl]),
    shapeCast_apply b Cert.KernelIdeal.Gen.shapeCasts_S1_S1x1 j (ix1 (⟨0, Nat.one_pos⟩ : Fin 1))
      (by rewrite [Shape.rowMajor_val_two, Shape.rowMajor_val_one]; have h0 : (j 0).val < 1 := (j 0).isLt
          have h1 : (j 1).val < 1 := (j 1).isLt
          show 0 = (j 0).val * 1 + (j 1).val; omega)]

/-- The logistic function, in the reference's spelling, is the kernel program's. -/
theorem logistic_same (y : FVec Ideal Cert.KernelIdeal.S100000x1 .f32) :
    Host.divf (broadcastInDim Cert.ReferenceIdeal.S100000x1 ![] Cert.ReferenceIdeal.Gen.bcast_S_S100000x1 (constant (F := Ideal) Cert.ReferenceIdeal.S_ .f32 0x3F800000#32))
        (addf (broadcastInDim Cert.ReferenceIdeal.S100000x1 ![] Cert.ReferenceIdeal.Gen.bcast_S_S100000x1 (constant (F := Ideal) Cert.ReferenceIdeal.S_ .f32 0x3F800000#32))
          (Host.exp (Host.negf y)))
      = Cert.KernelIdeal.HostValue.logistic y := rfl

end Cert.Bridge

end
-- ==== Proof.lean ====
/-
  The kernel and its reference compute the same three-layer graph network over the extended reals.

  Both programs build, from the edge list, the in-degree of every node and, per layer, the sum of the feature rows over
  each node's incoming edges; these are the same host operations on both sides and stay closed boxes. The kernel
  program multiplies the sums by the column `1 / max d 1`, the reference divides them by `max d 1`: on the extended
  reals `x / y = x · y⁻¹` and `1 / y = y⁻¹` whenever `y ≠ 0`, and `max d 1 ≥ 1`, so both are `x · (max d 1)⁻¹` and no
  finiteness of the inputs is used. A layer is then `A'·Wl + h·Wr + b` (followed by `max · 0` in the first two): the
  kernel computes it block of 5000 rows by block, the two products as sums into zero accumulators, and adds the bias
  last; the reference computes it on whole arrays and adds the bias between the products; sums of extended reals
  commute and associate. The kernel's narrowing of its operands to a 16-bit format is the identity on extended reals.
  The second result is the logistic function of the first, the same host operations on both sides.

  The three frames: the kernel program's (at both instances) by its generated frame certificate, the reference's by its
  generated run. Nothing was rewritten when the kernel was idealized, so there is nothing to preserve.
-/
import proofs.«400740_j64338610095087_3_alg».proof.Defs
import proofs.«400740_j64338610095087_3_alg».proof.Proof.Gen.Kernel
import proofs.«400740_j64338610095087_3_alg».proof.Proof.Gen.Kernel.Frame
import proofs.«400740_j64338610095087_3_alg».proof.Proof.Gen.KernelIdeal
import proofs.«400740_j64338610095087_3_alg».proof.Proof.Gen.KernelIdeal.Frame
import proofs.«400740_j64338610095087_3_alg».proof.Proof.Gen.ReferenceIdeal
import proofs.«400740_j64338610095087_3_alg».proof.Proof.Gen.ReferenceIdeal.Run
import proofs.«400740_j64338610095087_3_alg».proof.Proof.Gen.Pre_finite_inputs
import proofs.«400740_j64338610095087_3_alg».proof.Proof.KRun
import proofs.«400740_j64338610095087_3_alg».proof.Proof.KValue
import proofs.«400740_j64338610095087_3_alg».proof.Proof.Region0
import proofs.«400740_j64338610095087_3_alg».proof.Proof.Region1
import proofs.«400740_j64338610095087_3_alg».proof.Proof.Region2
import proofs.«400740_j64338610095087_3_alg».proof.Proof.RefSide
import proofs.«400740_j64338610095087_3_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

set_option maxHeartbeats 4000000 in
/-- Both programs end with the network's output in their first result and its logistic function in the second. -/
theorem algebraic : Cert.algebraic_KernelIdeal_ReferenceIdeal := by
  intro m ρ m' ρ' _ hagree
  have hL0 : Cert.KernelIdeal.RunValue.Layer0Value := Cert.KernelIdeal.RegionValue.region0_value
  have hL1 : Cert.KernelIdeal.RunValue.Layer1Value := Cert.KernelIdeal.RegionValue.region1_value
  have hL2 : Cert.KernelIdeal.RunValue.Layer2Value := Cert.KernelIdeal.RegionValue.region2_value
  -- the reference's first result, from memories that agree on the arguments, is the kernel program's
  have hlogits : ∀ c, Cert.ReferenceIdeal.Value.res_out0 (F := Ideal) m' c = Cert.KernelIdeal.RunValue.logits m c := fun c => by
    obtain ⟨a0, a1, a2, a3, a4, a5, a6, a7, a8, a9, a10⟩ := hagree c
    rw [Cert.ReferenceIdeal.RefValue.ref_out0, Cert.KernelIdeal.RunValue.logits_eq_net, a0, a1, a2, a3, a4, a5, a6, a7, a8, a9, a10,
      Cert.Bridge.degree_same, Cert.Bridge.wl0_same, Cert.Bridge.wr0_same, Cert.Bridge.b0_same, Cert.Bridge.wl1_same, Cert.Bridge.wr1_same, Cert.Bridge.b1_same,
      Cert.Bridge.wl2_same, Cert.Bridge.wr2_same, Cert.Bridge.b2_same]
    rw [show (fun h => Cert.ReferenceIdeal.Read.val_main_v17 (F := Ideal) h (m ((c.tc : Thread Cert.KernelIdeal.nD Cert.KernelIdeal.τ).loc Cert.KernelIdeal.main_arg1)))
        = Cert.KernelIdeal.HostValue.neighbourSum (Cert.KernelIdeal.HostValue.srcRow (m ((c.tc : Thread Cert.KernelIdeal.nD Cert.KernelIdeal.τ).loc Cert.KernelIdeal.main_arg1)))
            (Cert.KernelIdeal.HostValue.dstRow (m ((c.tc : Thread Cert.KernelIdeal.nD Cert.KernelIdeal.τ).loc Cert.KernelIdeal.main_arg1)))
      from funext fun h => Cert.Bridge.neighbourSum_same h _]
  refine ⟨fun c => Cert.KernelIdeal.RunValue.logits m c, fun c => Cert.KernelIdeal.HostValue.logistic (Cert.KernelIdeal.RunValue.logits m c), ?_, ?_⟩
  · exact (θ_run Cert.KernelIdeal.defs _ _).mono
      (fun r h c => ⟨(h c).1.trans (Cert.KernelIdeal.RunValue.out0_value m ρ hL0 hL1 hL2 c),
        (h c).2.1.trans (Cert.KernelIdeal.RunValue.out1_value m ρ hL0 hL1 hL2 c), (h c).2.2⟩)
      (Cert.KernelIdeal.RunValue.run_results m ρ)
  · refine (θ_run Cert.ReferenceIdeal.defs _ _).mono (fun r h c => ⟨(h c).1.trans (hlogits c), (h c).2.1.trans ?_, (h c).2.2⟩)
      (Cert.ReferenceIdeal.Value.run (F := Ideal) m' ρ')
    show Cert.ReferenceIdeal.Value.res_out1 (F := Ideal) m' c = _
    rw [Cert.ReferenceIdeal.RefValue.ref_out1, hlogits c]
    exact Cert.Bridge.logistic_same _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
